-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S32x64 .f32) (main_arg9 : FVec F S32 .f32) (main_arg10 : FVec F S32x64 .f32) (main_arg11 : FVec F S1x32 .f32) (main_arg12 : FVec F S1 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x64 .f32 := Host.absf main_arg10
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S1x32 .f32 := Host.absf main_arg11
  let main_cst_18 : FVec F S_ .f32 := constant S_ .f32 0x7F800000#32
  let main_v50 : FVec F S1x32 .f32 := broadcastInDim S1x32 ![] bcast_S_S1x32 main_cst_18
  fn_part3 (F := F) main_arg12 main_v48 main_v49 main_v50

def fn_part1 {F : FTy → Type} [FloatOps F] (main_arg5 : FVec F S64x64 .f32) (main_arg6 : FVec F S64 .f32) (main_arg7 : FVec F S64x64 .f32) (main_arg8 : FVec F S32x64 .f32) (main_arg9 : FVec F S32 .f32) (main_arg10 : FVec F S32x64 .f32) (main_arg11 : FVec F S1x32 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S32x64 .f32) (main_arg9 : FVec F S32 .f32) (main_arg10 : FVec F S32x64 .f32) (main_arg11 : FVec F S1x32 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S5000x64 : Shape := ⟨2, ![5000, 64]⟩
abbrev S1x64 : Shape := ⟨2, ![1, 64]⟩
abbrev S128x32 : Shape := ⟨2, ![128, 32]⟩
abbrev S128 : Shape := ⟨1, ![128]⟩
abbrev S100000x32 : Shape := ⟨2, ![100000, 32]⟩
abbrev S100000x128 : Shape := ⟨2, ![100000, 128]⟩
abbrev S5000x32 : Shape := ⟨2, ![5000, 32]⟩
abbrev S5000x128 : Shape := ⟨2, ![5000, 128]⟩
abbrev S64x32 : Shape := ⟨2, ![64, 32]⟩
abbrev S32x128 : Shape := ⟨2, ![32, 128]⟩
abbrev S1x128 : Shape := ⟨2, ![1, 128]⟩

abbrev nBuf : Space → Nat
  | .hbm => 110
  | .vmem => 31
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S32x64, .f32⟩
  | .hbm, ⟨9, _⟩ => ⟨S32, .f32⟩
  | .hbm, ⟨10, _⟩ => ⟨S32x64, .f32⟩
  | .hbm, ⟨11, _⟩ => ⟨S1x32, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S_, .f32⟩
  | .hbm, ⟨83, _⟩ => ⟨S1600000, .f32⟩
  | .hbm, ⟨84, _⟩ => ⟨S_, .f32⟩
  | .hbm, ⟨85, _⟩ => ⟨S100000, .f32⟩
  | .hbm, ⟨86, _⟩ => ⟨S1600000x1, .i32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S128x32, .f32⟩
  | .hbm, ⟨96, _⟩ => ⟨S32, .f32⟩
  | .hbm, ⟨97, _⟩ => ⟨S_, .i32⟩
  | .hbm, ⟨98, _⟩ => ⟨S1, .i32⟩
  | .hbm, ⟨99, _⟩ => ⟨S128x32, .f32⟩
  | .hbm, ⟨100, _⟩ => ⟨S_, .f32⟩
  | .hbm, ⟨101, _⟩ => ⟨S128, .f32⟩
  | .hbm, ⟨102, _⟩ => ⟨S_, .f32⟩
  | .hbm, ⟨103, _⟩ => ⟨S_, .i32⟩
  | .hbm, ⟨104, _⟩ => ⟨S1, .i32⟩
  | .hbm, ⟨105, _⟩ => ⟨S128, .f32⟩
  | .hbm, ⟨106, _⟩ => ⟨S100000x32, .f32⟩
  | .hbm, ⟨107, _⟩ => ⟨S100000x128, .f32⟩
  | .hbm, ⟨108, _⟩ => ⟨S100000x1, .f32⟩
  | .hbm, ⟨109, _⟩ => ⟨S100000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S32x64, .f32⟩
  | .local _ .vmem, ⟨23, _⟩ => ⟨S32, .f32⟩
  | .local _ .vmem, ⟨24, _⟩ => ⟨S32x64, .f32⟩
  | .local _ .vmem, ⟨25, _⟩ => ⟨S128x32, .f32⟩
  | .local _ .vmem, ⟨26, _⟩ => ⟨S128, .f32⟩
  | .local _ .vmem, ⟨27, _⟩ => ⟨S5000x32, .f32⟩
  | .local _ .vmem, ⟨28, _⟩ => ⟨S5000x32, .f32⟩
  | .local _ .vmem, ⟨29, _⟩ => ⟨S5000x128, .f32⟩
  | .local _ .vmem, ⟨30, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_cst_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_15 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_16 : Ref sig .tc := ⟨.hbm, 94, rfl⟩
abbrev main_v63 : Ref sig .tc := ⟨.hbm, 95, rfl⟩
abbrev main_v64 : Ref sig .tc := ⟨.hbm, 96, rfl⟩
abbrev main_c_17 : Ref sig .tc := ⟨.hbm, 97, rfl⟩
abbrev main_v65 : Ref sig .tc := ⟨.hbm, 98, rfl⟩
abbrev main_v66 : Ref sig .tc := ⟨.hbm, 99, rfl⟩
abbrev main_cst_18 : Ref sig .tc := ⟨.hbm, 100, rfl⟩
abbrev main_v67 : Ref sig .tc := ⟨.hbm, 101, rfl⟩
abbrev main_v68 : Ref sig .tc := ⟨.hbm, 102, rfl⟩
abbrev main_c_19 : Ref sig .tc := ⟨.hbm, 103, rfl⟩
abbrev main_v69 : Ref sig .tc := ⟨.hbm, 104, rfl⟩
abbrev main_v70 : Ref sig .tc := ⟨.hbm, 105, rfl⟩
abbrev main_v71_0 : Ref sig .tc := ⟨.hbm, 106, rfl⟩
abbrev main_v71_1 : Ref sig .tc := ⟨.hbm, 107, rfl⟩
abbrev main_v72 : Ref sig .tc := ⟨.hbm, 108, rfl⟩
abbrev main_v73 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg8_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28
abbrev cc2_sem8_0 : DmaSem sig := 29
abbrev cc2_sem8_1 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S128x32 : S_.BroadcastsInDim S128x32 (![] : Fin 0 → Fin S128x32.rank)
  shapeCasts_S1x32_S32 : S1x32.ShapeCasts S32
  bcast_S_S1 : S_.BroadcastsInDim S1 (![] : Fin 0 → Fin S1.rank)
  bcast_S_S128 : S_.BroadcastsInDim S128 (![] : Fin 0 → Fin S128.rank)
  shapeCasts_S1_S_ : S1.ShapeCasts S_
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  transposes_S128x32_p1_0_S32x128 : S128x32.Transposes [1, 0] S32x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S100000x128_S100000x1_0_0 : S100000x128.Slices ![0, 0] S100000x1
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  scatter_S128x32_S1_S32_0_0_0_0_wf : ScatterDims.WF S128x32 S1 S32 [0] [0] [0] 0
  scatter_S128_S1_S__n_0_0_0_wf : ScatterDims.WF S128 S1 S_ [] [0] [0] 0
  dot_S5000x64_S64x32_S5000x32_1_0_0_1_n_n_wf : DotDims.WF S5000x64 S64x32 S5000x32 [1] [0] [0] [1] [] []
  dot_S5000x32_S32x128_S5000x128_1_0_0_1_n_n_wf : DotDims.WF S5000x32 S32x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x64.size a ≤ S32x64.size a
  hwx2_4 : ∀ i : grid2.Coords, EltTy.bits .f32 = 32 ∨ (Rect.block (s := S32x64) S32x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x32.size a ≤ S128x32.size a
  hwx2_5 : ∀ i : grid2.Coords, EltTy.bits .f32 = 32 ∨ (Rect.block (s := S128x32) S128x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x32.size a ≤ S100000x32.size a
  hwx2_7 : ∀ i : grid2.Coords, EltTy.bits .f32 = 32 ∨ (Rect.block (s := S100000x32) S5000x32.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S128x32_S1_S32_0_0_0_0 : ScatterDims S128x32 S1 S32 where
  updateWindowDims := [0]
  insertedWindowDims := [0]
  scatterDimsToOperandDims := [0]
  indexVectorDim := 0
  wf := scatter_S128x32_S1_S32_0_0_0_0_wf
def scatter_S128_S1_S__n_0_0_0 : ScatterDims S128 S1 S_ where
  updateWindowDims := []
  insertedWindowDims := [0]
  scatterDimsToOperandDims := [0]
  indexVectorDim := 0
  wf := scatter_S128_S1_S__n_0_0_0_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S32x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S128x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71_0) S5000x32.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v71_1) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S32x1 : Shape := ⟨2, ![32, 1]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S32x64, .f32⟩
  | 9 => ⟨S32, .f32⟩
  | 10 => ⟨S32x64, .f32⟩
  | 11 => ⟨S1x32, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S_, .f32⟩
  | 31 => ⟨S1600000, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x64, .f32⟩
  | 41 => ⟨S100000x64, .f32⟩
  | 42 => ⟨S64x64, .f32⟩
  | 43 => ⟨S100000x64, .f32⟩
  | 44 => ⟨S1x64, .f32⟩
  | 45 => ⟨S100000x64, .f32⟩
  | 46 => ⟨S100000x64, .f32⟩
  | 47 => ⟨S64x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S_, .f32⟩
  | 67 => ⟨S1600000, .f32⟩
  | 68 => ⟨S_, .f32⟩
  | 69 => ⟨S100000, .f32⟩
  | 70 => ⟨S1600000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x64, .f32⟩
  | 77 => ⟨S100000x64, .f32⟩
  | 78 => ⟨S64x64, .f32⟩
  | 79 => ⟨S100000x64, .f32⟩
  | 80 => ⟨S1x64, .f32⟩
  | 81 => ⟨S100000x64, .f32⟩
  | 82 => ⟨S100000x64, .f32⟩
  | 83 => ⟨S64x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S_, .f32⟩
  | 99 => ⟨S100000x64, .f32⟩
  | 100 => ⟨S1600000x1, .i32⟩
  | 101 => ⟨S100000x64, .f32⟩
  | 102 => ⟨S_, .f32⟩
  | 103 => ⟨S1600000, .f32⟩
  | 104 => ⟨S_, .f32⟩
  | 105 => ⟨S100000, .f32⟩
  | 106 => ⟨S1600000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x64, .f32⟩
  | 113 => ⟨S100000x64, .f32⟩
  | 114 => ⟨S64x32, .f32⟩
  | 115 => ⟨S100000x32, .f32⟩
  | 116 => ⟨S1x32, .f32⟩
  | 117 => ⟨S100000x32, .f32⟩
  | 118 => ⟨S100000x32, .f32⟩
  | 119 => ⟨S64x32, .f32⟩
  | 120 => ⟨S100000x32, .f32⟩
  | 121 => ⟨S100000x32, .f32⟩
  | 122 => ⟨S_, .f32⟩
  | 123 => ⟨S100000x32, .f32⟩
  | 124 => ⟨S100000x32, .f32⟩
  | 125 => ⟨S32x1, .f32⟩
  | 126 => ⟨S100000x1, .f32⟩
  | 127 => ⟨S1x1, .f32⟩
  | _ => ⟨S100000x64, .f32⟩

abbrev hbmTy0_1 (i : Nat) : BufTy := match i % 128 with
  | 0 => ⟨S100000x1, .f32⟩
  | 1 => ⟨S100000x1, .f32⟩
  | 2 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call2_cst : Ref sig .tc := ⟨.hbm, 122, rfl⟩
abbrev main_call2_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S1x32_S32x1_1_0 : S1x32.Transposes [1, 0] S32x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KHost.lean ====
/-
  The host side of the kernel's program, read as values. Before each kernel call the host averages the features of each
  node's in-neighbours: it gathers the source rows of the edges, adds them onto the destination rows, counts the in-edges
  of each node, keeps that count at least one, and divides. The edge list is split into sources and destinations once,
  before the first call. Before the last call the host also pads the head's one weight row and one bias entry with zeros
  to 128 rows and entries, and after it the first column of the head's result is kept.
-/
import proofs.«161791_j38122129719954_1_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.KHost

open Cert.KernelIdeal Cert.KernelIdeal.Facts₀ Cert.KernelIdeal.Facts

/-- The sources of the edges: row 0 of the edge list. -/
def srcOf (e : IVec S2x1600000 32) : IVec S1600000 32 :=
  shapeCast _ (extractStridedSlice S1x1600000 ![0, 0] e slices_S2x1600000_S1x1600000_0_0) shapeCasts_S1x1600000_S1600000

/-- The destinations of the edges: row 1 of the edge list. -/
def dstOf (e : IVec S2x1600000 32) : IVec S1600000 32 :=
  shapeCast _ (extractStridedSlice S1x1600000 ![1, 0] e slices_S2x1600000_S1x1600000_1_0) shapeCasts_S1x1600000_S1600000

/-- The averaging map from the edges' sources and destinations: each node's row becomes the sum of its in-neighbours'
    rows over the number of its in-edges, that number kept at least one. A negative source index counts from the end. -/
def avgOf (src dst : IVec S1600000 32) (h : FVec Ideal S100000x64 .f32) :
    FVec Ideal S100000x64 .f32 :=
  Host.divf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

/-- The averaging map of an edge list. -/
def avg (e : IVec S2x1600000 32) (h : FVec Ideal S100000x64 .f32) :
    FVec Ideal S100000x64 .f32 := avgOf (srcOf e) (dstOf e) h

variable (X : Valuation τ sig (Elt Ideal))

/-- The host operations before the first call: the edge list split, the first averages. -/
theorem stretch0_avg : StableHlo.after (Gen.hostOps0 (F := Ideal)) X (Proc.devRef .tc main_v22)
    = avg (X (Proc.devRef .tc main_arg1)) (X (Proc.devRef .tc main_arg0)) := by
  after_results_simp <;> rfl

theorem stretch0_src : StableHlo.after (Gen.hostOps0 (F := Ideal)) X (Proc.devRef .tc main_v1) = srcOf (X (Proc.devRef .tc main_arg1)) := by
  after_results_simp <;> rfl

theorem stretch0_dst : StableHlo.after (Gen.hostOps0 (F := Ideal)) X (Proc.devRef .tc main_v3) = dstOf (X (Proc.devRef .tc main_arg1)) := by
  after_results_simp <;> rfl

/-! The arrays a stretch of host operations does not write keep their contents. -/

theorem keep0_arg0 : StableHlo.after (Gen.hostOps0 (F := Ideal)) X (Proc.devRef .tc main_arg0) = X (Proc.devRef .tc main_arg0) := by
  after_results_simp <;> rfl
theorem keep0_arg2 : StableHlo.after (Gen.hostOps0 (F := Ideal)) X (Proc.devRef .tc main_arg2) = X (Proc.devRef .tc main_arg2) := by
  after_results_simp <;> rfl
theorem keep0_arg3 : StableHlo.after (Gen.hostOps0 (F := Ideal)) X (Proc.devRef .tc main_arg3) = X (Proc.devRef .tc main_arg3) := by
  after_results_simp <;> rfl
theorem keep0_arg4 : StableHlo.after (Gen.hostOps0 (F := Ideal)) X (Proc.devRef .tc main_arg4) = X (Proc.devRef .tc main_arg4) := by
  after_results_simp <;> rfl
theorem keep0_arg5 : StableHlo.after (Gen.hostOps0 (F := Ideal)) X (Proc.devRef .tc main_arg5) = X (Proc.devRef .tc main_arg5) := by
  after_results_simp <;> rfl
theorem keep0_arg6 : StableHlo.after (Gen.hostOps0 (F := Ideal)) X (Proc.devRef .tc main_arg6) = X (Proc.devRef .tc main_arg6) := by
  after_results_simp <;> rfl
theorem keep0_arg7 : StableHlo.after (Gen.hostOps0 (F := Ideal)) X (Proc.devRef .tc main_arg7) = X (Proc.devRef .tc main_arg7) := by
  after_results_simp <;> rfl
theorem keep0_arg8 : StableHlo.after (Gen.hostOps0 (F := Ideal)) X (Proc.devRef .tc main_arg8) = X (Proc.devRef .tc main_arg8) := by
  after_results_simp <;> rfl
theorem keep0_arg9 : StableHlo.after (Gen.hostOps0 (F := Ideal)) X (Proc.devRef .tc main_arg9) = X (Proc.devRef .tc main_arg9) := by
  after_results_simp <;> rfl
theorem keep0_arg10 : StableHlo.after (Gen.hostOps0 (F := Ideal)) X (Proc.devRef .tc main_arg10) = X (Proc.devRef .tc main_arg10) := by
  after_results_simp <;> rfl
theorem keep0_arg11 : StableHlo.after (Gen.hostOps0 (F := Ideal)) X (Proc.devRef .tc main_arg11) = X (Proc.devRef .tc main_arg11) := by
  after_results_simp <;> rfl
theorem keep0_arg12 : StableHlo.after (Gen.hostOps0 (F := Ideal)) X (Proc.devRef .tc main_arg12) = X (Proc.devRef .tc main_arg12) := by
  after_results_simp <;> rfl

theorem keep1_v23 : StableHlo.after (Gen.hostOps1 (F := Ideal)) X (Proc.devRef .tc main_v23) = X (Proc.devRef .tc main_v23) := by
  after_results_simp <;> rfl
theorem keep1_v1 : StableHlo.after (Gen.hostOps1 (F := Ideal)) X (Proc.devRef .tc main_v1) = X (Proc.devRef .tc main_v1) := by
  after_results_simp <;> rfl
theorem keep1_v3 : StableHlo.after (Gen.hostOps1 (F := Ideal)) X (Proc.devRef .tc main_v3) = X (Proc.devRef .tc main_v3) := by
  after_results_simp <;> rfl
theorem keep1_arg5 : StableHlo.after (Gen.hostOps1 (F := Ideal)) X (Proc.devRef .tc main_arg5) = X (Proc.devRef .tc main_arg5) := by
  after_results_simp <;> rfl
theorem keep1_arg6 : StableHlo.after (Gen.hostOps1 (F := Ideal)) X (Proc.devRef .tc main_arg6) = X (Proc.devRef .tc main_arg6) := by
  after_results_simp <;> rfl
theorem keep1_arg7 : StableHlo.after (Gen.hostOps1 (F := Ideal)) X (Proc.devRef .tc main_arg7) = X (Proc.devRef .tc main_arg7) := by
  after_results_simp <;> rfl
theorem keep1_arg8 : StableHlo.after (Gen.hostOps1 (F := Ideal)) X (Proc.devRef .tc main_arg8) = X (Proc.devRef .tc main_arg8) := by
  after_results_simp <;> rfl
theorem keep1_arg9 : StableHlo.after (Gen.hostOps1 (F := Ideal)) X (Proc.devRef .tc main_arg9) = X (Proc.devRef .tc main_arg9) := by
  after_results_simp <;> rfl
theorem keep1_arg10 : StableHlo.after (Gen.hostOps1 (F := Ideal)) X (Proc.devRef .tc main_arg10) = X (Proc.devRef .tc main_arg10) := by
  after_results_simp <;> rfl
theorem keep1_arg11 : StableHlo.after (Gen.hostOps1 (F := Ideal)) X (Proc.devRef .tc main_arg11) = X (Proc.devRef .tc main_arg11) := by
  after_results_simp <;> rfl
theorem keep1_arg12 : StableHlo.after (Gen.hostOps1 (F := Ideal)) X (Proc.devRef .tc main_arg12) = X (Proc.devRef .tc main_arg12) := by
  after_results_simp <;> rfl

theorem keep2_v43 : StableHlo.after (Gen.hostOps2 (F := Ideal)) X (Proc.devRef .tc main_v43) = X (Proc.devRef .tc main_v43) := by
  after_results_simp <;> rfl
theorem keep2_arg8 : StableHlo.after (Gen.hostOps2 (F := Ideal)) X (Proc.devRef .tc main_arg8) = X (Proc.devRef .tc main_arg8) := by
  after_results_simp <;> rfl
theorem keep2_arg9 : StableHlo.after (Gen.hostOps2 (F := Ideal)) X (Proc.devRef .tc main_arg9) = X (Proc.devRef .tc main_arg9) := by
  after_results_simp <;> rfl
theorem keep2_arg10 : StableHlo.after (Gen.hostOps2 (F := Ideal)) X (Proc.devRef .tc main_arg10) = X (Proc.devRef .tc main_arg10) := by
  after_results_simp <;> rfl

/-- The host operations between the first and the second call: the averages of the first layer's result. -/
theorem stretch1_avg : StableHlo.after (Gen.hostOps1 (F := Ideal)) X (Proc.devRef .tc main_v42)
    = avgOf (X (Proc.devRef .tc main_v1)) (X (Proc.devRef .tc main_v3)) (X (Proc.devRef .tc main_v23)) := by
  after_results_simp <;> rfl

/-- The host operations between the second and the last call: the averages of the second layer's result. -/
theorem stretch2_avg : StableHlo.after (Gen.hostOps2 (F := Ideal)) X (Proc.devRef .tc main_v62)
    = avgOf (X (Proc.devRef .tc main_v1)) (X (Proc.devRef .tc main_v3)) (X (Proc.devRef .tc main_v43)) := by
  after_results_simp <;> rfl

/-- The head's weight row written into row 0 of a 128 × 32 matrix of zeros. -/
def padW (w : FVec Ideal S1x32 .f32) : FVec Ideal S128x32 .f32 :=
  Host.scatter scatter_S128x32_S1_S32_0_0_0_0 (fun _ b => b)
    (broadcastInDim S128x32 ![] bcast_S_S128x32 (constant (F := Ideal) S_ .f32 0x00000000#32))
    (broadcastInDim S1 ![] bcast_S_S1 (constantI S_ 32 0#32)) (shapeCast _ w shapeCasts_S1x32_S32)

/-- The head's bias written into entry 0 of a vector of 128 zeros. -/
def padB (b : FVec Ideal S1 .f32) : FVec Ideal S128 .f32 :=
  Host.scatter scatter_S128_S1_S__n_0_0_0 (fun _ b => b)
    (broadcastInDim S128 ![] bcast_S_S128 (constant (F := Ideal) S_ .f32 0x00000000#32))
    (broadcastInDim S1 ![] bcast_S_S1 (constantI S_ 32 0#32)) (shapeCast _ b shapeCasts_S1_S_)

theorem stretch2_padW : StableHlo.after (Gen.hostOps2 (F := Ideal)) X (Proc.devRef .tc main_v66)
    = padW (X (Proc.devRef .tc main_arg11)) := by
  after_results_simp <;> rfl

theorem stretch2_padB : StableHlo.after (Gen.hostOps2 (F := Ideal)) X (Proc.devRef .tc main_v70)
    = padB (X (Proc.devRef .tc main_arg12)) := by
  after_results_simp <;> rfl

/-- The first column of a 100000 × 128 matrix as a vector. -/
def col0 (y : FVec Ideal S100000x128 .f32) : FVec Ideal S100000 .f32 :=
  shapeCast _ (extractStridedSlice S100000x1 ![0, 0] y slices_S100000x128_S100000x1_0_0) shapeCasts_S100000x1_S100000

/-- The host operations after the last call: the first column of the head's result. -/
theorem stretch3_col0 : StableHlo.after (Gen.hostOps3 (F := Ideal)) X (Proc.devRef .tc main_v73)
    = col0 (X (Proc.devRef .tc main_v71_1)) := by
  after_results_simp <;> rfl

end Cert.KernelIdeal.KHost

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.LibSageLayer.lean ====
/-
  One layer of a graph network that averages over neighbours, over the extended reals, and the linear head that follows the
  last layer. A layer takes the neighbour average a and the node's own features x of every node, two weight matrices kept
  with one row per output feature, and a bias; entry (n, j) of its result is
      max ( ∑ₖ a(n, k) · wl(j, k)  +  ∑ₖ x(n, k) · wr(j, k)  +  b(j) ,  z ).
  The matrix unit forms the two products into zero accumulators, adds them, then adds the bias kept as a one-row matrix
  broadcast over the rows; the host forms the first product, adds the bias broadcast from a vector, then adds the second
  product. Addition of extended reals is commutative and associative, so both are the entry above. The head is one more
  product with a weight matrix plus a bias, without the maximum.
-/
import Idealize.ShloMosaic.PureOps.Ideal.Laws
import Idealize.ShloMosaic.Lib.ValueIdx
import Idealize.ShloMosaic.Lib.ValueLayout
import Idealize.ShloMosaic.Lib.Pipeline.Value
import proofs.«161791_j38122129719954_1_alg».proof.Proof.LibPlainMatmul

noncomputable section

open Idealize.ShloMosaic Idealize.ShloMosaic.ValueIdx

namespace Cert.LibSage

/-- One entry of a layer from the node's two rows, the output feature's two weight rows and its bias entry. -/
def sageAt {K : ℕ} (z : EReal) (a x wl wr : Fin K → EReal) (b : EReal) : EReal :=
  max (((∑ k : Fin K, a k * wl k) + (∑ k : Fin K, x k * wr k)) + b) z

/-- The threshold of the activation: the value of the all-zero word. -/
abbrev z32 : EReal := Ideal.ofBits .f32 0x00000000#32

/-- A whole layer: entry (n, j) from rows n of the two node matrices and rows j of the two weight matrices. -/
def sage {N K D : ℕ} (a x : (⟨2, ![N, K]⟩ : Shape).Idx → EReal) (wl wr : (⟨2, ![D, K]⟩ : Shape).Idx → EReal)
    (b : (⟨1, ![D]⟩ : Shape).Idx → EReal) : (⟨2, ![N, D]⟩ : Shape).Idx → EReal :=
  fun i => sageAt z32 (fun k => a (ix2 (n0 := N) (i 0) k)) (fun k => x (ix2 (n0 := N) (i 0) k))
    (fun k => wl (ix2 (n0 := D) (i 1) k)) (fun k => wr (ix2 (n0 := D) (i 1) k)) (b (ix1 (n := D) (i 1)))

theorem sage_ix2 {N K D : ℕ} (a x : (⟨2, ![N, K]⟩ : Shape).Idx → EReal) (wl wr : (⟨2, ![D, K]⟩ : Shape).Idx → EReal)
    (b : (⟨1, ![D]⟩ : Shape).Idx → EReal) (n : Fin N) (j : Fin D) :
    sage a x wl wr b (ix2 n j) = sageAt z32 (fun k => a (ix2 n k)) (fun k => x (ix2 n k))
      (fun k => wl (ix2 j k)) (fun k => wr (ix2 j k)) (b (ix1 j)) := rfl

/-- The head with its weight matrix kept with one row per output column: entry (n, p) is ∑ₖ h(n, k) · w(p, k) + b(p). -/
def headPad {N K P : ℕ} (h : (⟨2, ![N, K]⟩ : Shape).Idx → EReal) (w : (⟨2, ![P, K]⟩ : Shape).Idx → EReal)
    (b : (⟨1, ![P]⟩ : Shape).Idx → EReal) : (⟨2, ![N, P]⟩ : Shape).Idx → EReal :=
  fun i => (∑ k : Fin K, h (ix2 (n0 := N) (i 0) k) * w (ix2 (n0 := P) (i 1) k)) + b (ix1 (n := P) (i 1))

theorem headPad_ix2 {N K P : ℕ} (h : (⟨2, ![N, K]⟩ : Shape).Idx → EReal) (w : (⟨2, ![P, K]⟩ : Shape).Idx → EReal)
    (b : (⟨1, ![P]⟩ : Shape).Idx → EReal) (n : Fin N) (p : Fin P) :
    headPad h w b (ix2 n p) = (∑ k : Fin K, h (ix2 n k) * w (ix2 p k)) + b (ix1 p) := rfl

/-- The head with one output column, as a vector over the nodes: entry n is ∑ₖ h(n, k) · w(0, k) + b(0). -/
def headCol {N K : ℕ} (h : (⟨2, ![N, K]⟩ : Shape).Idx → EReal) (w : (⟨2, ![1, K]⟩ : Shape).Idx → EReal)
    (b : (⟨1, ![1]⟩ : Shape).Idx → EReal) : (⟨1, ![N]⟩ : Shape).Idx → EReal :=
  fun i => (∑ k : Fin K, h (ix2 (n0 := N) (i 0) k) * w (ix2 (0 : Fin 1) k)) + b (ix1 (0 : Fin 1))

/-- Three layers and the head. Before each layer the neighbour averages are formed from the layer's input by one and the
    same averaging map, which this definition takes as given. -/
def net {N K D : ℕ} (avg : ((⟨2, ![N, K]⟩ : Shape).Idx → EReal) → ((⟨2, ![N, K]⟩ : Shape).Idx → EReal))
    (x : (⟨2, ![N, K]⟩ : Shape).Idx → EReal)
    (w1l : (⟨2, ![K, K]⟩ : Shape).Idx → EReal) (b1 : (⟨1, ![K]⟩ : Shape).Idx → EReal) (w1r : (⟨2, ![K, K]⟩ : Shape).Idx → EReal)
    (w2l : (⟨2, ![K, K]⟩ : Shape).Idx → EReal) (b2 : (⟨1, ![K]⟩ : Shape).Idx → EReal) (w2r : (⟨2, ![K, K]⟩ : Shape).Idx → EReal)
    (w3l : (⟨2, ![D, K]⟩ : Shape).Idx → EReal) (b3 : (⟨1, ![D]⟩ : Shape).Idx → EReal) (w3r : (⟨2, ![D, K]⟩ : Shape).Idx → EReal)
    (wreg : (⟨2, ![1, D]⟩ : Shape).Idx → EReal) (breg : (⟨1, ![1]⟩ : Shape).Idx → EReal) : (⟨1, ![N]⟩ : Shape).Idx → EReal :=
  headCol (sage (avg (sage (avg (sage (avg x) x w1l w1r b1)) (sage (avg x) x w1l w1r b1) w2l w2r b2))
    (sage (avg (sage (avg x) x w1l w1r b1)) (sage (avg x) x w1l w1r b1) w2l w2r b2) w3l w3r b3) wreg breg

/-- A vector laid out as a one-row matrix, and that row then repeated over M rows, reads at (e, j) the vector at j. -/
theorem rowsOfVec_apply {M N : ℕ} {α : Type} (b : (⟨1, ![N]⟩ : Shape).Idx → α)
    (h₁ : (⟨1, ![N]⟩ : Shape).BroadcastsInDim ⟨2, ![1, N]⟩ ![1])
    (h₂ : (⟨2, ![1, N]⟩ : Shape).BroadcastsInDim ⟨2, ![M, N]⟩ ![0, 1]) (e : Fin M) (j : Fin N) :
    broadcastInDim (⟨2, ![M, N]⟩ : Shape) ![0, 1] h₂ (broadcastInDim (⟨2, ![1, N]⟩ : Shape) ![1] h₁ b) (ix2 e j)
      = b (ix1 j) := by
  have hj := j.isLt
  -- the column coordinate survives both steps: an axis of extent N is read at 0 only when N = 1, and then j = 0 anyway
  have col : j.val = if N = 1 then 0 else j.val := by split_ifs <;> omega
  have inner : broadcastInDim (⟨2, ![1, N]⟩ : Shape) ![1] h₁ b (ix2 (0 : Fin 1) j) = b (ix1 j) := by
    refine broadcastInDim_apply ![1] h₁ b _ (ix1 j) fun ax => ?_
    match ax with
    | ⟨0, _⟩ => exact col
  rw [← inner]
  refine broadcastInDim_apply ![0, 1] h₂ _ (ix2 e j) (ix2 (0 : Fin 1) j) fun ax => ?_
  match ax with
  | ⟨0, _⟩ => rfl
  | ⟨1, _⟩ => exact col

/-- The matrix unit's layer at one entry: two products into zero accumulators, their sum, a one-row bias broadcast over
    the rows, the maximum with a splat threshold. The weight operands are already transposed: K rows, N columns. -/
theorem unit_sage_apply {M K N : ℕ} {φ₁ φ₂ : FTy} (a x : FVec Ideal ⟨2, ![M, K]⟩ φ₁) (wlT wrT : FVec Ideal ⟨2, ![K, N]⟩ φ₂)
    (brow : FVec Ideal ⟨2, ![1, N]⟩ .f32) (hb : (⟨2, ![1, N]⟩ : Shape).Broadcasts ⟨2, ![M, N]⟩) (z : Ideal .f32)
    (e : Fin M) (j : Fin N) :
    maximumf (addf (addf
        (matmul (DotDims.plain M K N) none a wlT (constant (⟨2, ![M, N]⟩ : Shape) .f32 0x00000000#32))
        (matmul (DotDims.plain M K N) none x wrT (constant (⟨2, ![M, N]⟩ : Shape) .f32 0x00000000#32)))
        (broadcastTo (⟨2, ![M, N]⟩ : Shape) brow hb)) (broadcast (⟨2, ![M, N]⟩ : Shape) z) (ix2 e j)
      = sageAt z (fun k => a (ix2 e k)) (fun k => x (ix2 e k)) (fun k => wlT (ix2 k j)) (fun k => wrT (ix2 k j))
          (brow (ix2 (0 : Fin 1) j)) := by
  unfold sageAt
  rw [maximumf_apply, addf_apply, addf_apply, broadcast_apply, broadcastTo_1b_ab_apply,
    LibPlainMatmul.matmul_plain_apply, LibPlainMatmul.matmul_plain_apply]

/-- The host's layer at one entry: the first product, the bias broadcast from a vector to one row and then over the rows,
    the second product, the maximum with a splat of a constant word. -/
theorem host_sage_apply {M K N : ℕ} {φ₁ φ₂ : FTy} (a x : FVec Ideal ⟨2, ![M, K]⟩ φ₁) (wlT wrT : FVec Ideal ⟨2, ![K, N]⟩ φ₂)
    (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1])
    (h₀ : (⟨0, ![]⟩ : Shape).BroadcastsInDim ⟨2, ![M, N]⟩ ![]) (w : BitVec 32) (e : Fin M) (j : Fin N) :
    maximumf (addf (addf (Host.dotGeneral (DotDims.plain M K N) none a wlT)
        (broadcastInDim (⟨2, ![M, N]⟩ : Shape) ![0, 1] h₂ (broadcastInDim (⟨2, ![1, N]⟩ : Shape) ![1] h₁ b)))
        (Host.dotGeneral (DotDims.plain M K N) none x wrT))
        (broadcastInDim (⟨2, ![M, N]⟩ : Shape) ![] h₀ (constant (F := Ideal) (⟨0, ![]⟩ : Shape) .f32 w)) (ix2 e j)
      = sageAt (Ideal.ofBits .f32 w) (fun k => a (ix2 e k)) (fun k => x (ix2 e k)) (fun k => wlT (ix2 k j))
          (fun k => wrT (ix2 k j)) (b (ix1 j)) := by
  unfold sageAt
  rw [maximumf_apply, addf_apply, addf_apply, rowsOfVec_apply, LibPlainMatmul.dotGeneral_plain_apply,
    LibPlainMatmul.dotGeneral_plain_apply]
  -- the threshold: a rank-0 constant read through a broadcast with no source axes is the constant's one value
  have thr : broadcastInDim (⟨2, ![M, N]⟩ : Shape) ![] h₀ (constant (F := Ideal) (⟨0, ![]⟩ : Shape) .f32 w) (ix2 e j)
      = Ideal.ofBits .f32 w := by
    rw [broadcastInDim_apply ![] h₀ _ (ix2 e j) ix0 (fun ax => ax.elim0), constant_apply]
  -- the host adds the bias between the two products; addition commutes
  rw [thr, add_right_comm]

/-- The matrix unit's head at one entry: the product into a zero accumulator plus a one-row bias broadcast over the rows. -/
theorem unit_head_apply {M K N : ℕ} {φ₁ φ₂ : FTy} (h : FVec Ideal ⟨2, ![M, K]⟩ φ₁) (wT : FVec Ideal ⟨2, ![K, N]⟩ φ₂)
    (brow : FVec Ideal ⟨2, ![1, N]⟩ .f32) (hb : (⟨2, ![1, N]⟩ : Shape).Broadcasts ⟨2, ![M, N]⟩) (e : Fin M) (j : Fin N) :
    addf (matmul (DotDims.plain M K N) none h wT (constant (⟨2, ![M, N]⟩ : Shape) .f32 0x00000000#32))
        (broadcastTo (⟨2, ![M, N]⟩ : Shape) brow hb) (ix2 e j)
      = (∑ k : Fin K, h (ix2 e k) * wT (ix2 k j)) + brow (ix2 (0 : Fin 1) j) := by
  rw [addf_apply, broadcastTo_1b_ab_apply, LibPlainMatmul.matmul_plain_apply]

/-- The host's head at one entry: the product plus the bias broadcast from a vector to one row and then over the rows. -/
theorem host_head_apply {M K N : ℕ} {φ₁ φ₂ : FTy} (h : FVec Ideal ⟨2, ![M, K]⟩ φ₁) (wT : FVec Ideal ⟨2, ![K, N]⟩ φ₂)
    (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1]) (e : Fin M) (j : Fin N) :
    addf (Host.dotGeneral (DotDims.plain M K N) none h wT)
        (broadcastInDim (⟨2, ![M, N]⟩ : Shape) ![0, 1] h₂ (broadcastInDim (⟨2, ![1, N]⟩ : Shape) ![1] h₁ b)) (ix2 e j)
      = (∑ k : Fin K, h (ix2 e k) * wT (ix2 k j)) + b (ix1 j) := by
  rw [addf_apply, rowsOfVec_apply, LibPlainMatmul.dotGeneral_plain_apply]

end Cert.LibSage

end
-- ==== Proof.KRegion0.lean ====
/-
  The first layer's kernel, read as a value: over a grid of 20 points, point t takes rows 5000·t … 5000·t + 4999 of the
  neighbour averages and of the node features, the two 64 × 64 weight matrices and the bias whole, and writes back the
  same rows of the layer's result. Each written row depends only on the same row of the two inputs, and the twenty row
  blocks tile the 100000 rows, so after the run the output array is the layer of the whole input arrays.
-/
import proofs.«161791_j38122129719954_1_alg».proof.Proof.Gen.KernelIdeal.Frame
import proofs.«161791_j38122129719954_1_alg».proof.Proof.LibSageLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.LibSage

variable (V : (c : Dev nD) → (b : Ref sig .tc) → Buf (Elt Ideal) ((c : Thread nD τ).loc b))

/-- The zero offsets of a rank-2 access, however spelt, are the zero function. -/
theorem hz : (![0, 0] : Fin 2 → Nat) = fun _ => 0 := funext fun a => by fin_cases a <;> rfl
/-- The same for a rank-1 access. -/
theorem hz1 : (![0] : Fin 1 → Nat) = fun _ => 0 := funext fun a => by fin_cases a <;> rfl

/-- Two entries of a layer agree when their rows, weight rows and bias entries agree term by term. -/
theorem sageAt_congr {K : ℕ} (z : EReal) {a a' x x' wl wl' wr wr' : Fin K → EReal} {b b' : EReal}
    (ha : ∀ k, a k = a' k) (hx : ∀ k, x k = x' k) (hwl : ∀ k, wl k = wl' k) (hwr : ∀ k, wr k = wr' k) (hb : b = b') :
    sageAt z a x wl wr b = sageAt z a' x' wl' wr' b' := by
  obtain rfl := funext ha
  obtain rfl := funext hx
  obtain rfl := funext hwl
  obtain rfl := funext hwr
  rw [hb]

/-- What the body stores, at entry (e, j) of its block: the layer's entry from row e of the two node blocks, row j of
    the two weight matrices and entry j of the bias. -/
theorem pay_apply (v0 v3 : Vec Ideal S5000x64 .f32) (v5 v7 : Vec Ideal S64x64 .f32) (v14 : Vec Ideal S64 .f32)
    (e : Fin 5000) (j : Fin 64) :
    k0_pay1 (F := Ideal) v0 v3 v5 v7 v14 (ix2 e j)
      = sageAt z32 (fun k => v0 (ix2 e k)) (fun k => v3 (ix2 e k)) (fun k => v5 (ix2 j k)) (fun k => v7 (ix2 j k))
          (v14 (ix1 j)) := by
  unfold k0_pay1
  refine (unit_sage_apply (M := 5000) (K := 64) (N := 64) _ _ _ _ _ _ _ e j).trans ?_
  -- rounding to the narrower format is the identity over the extended reals, so a transposed rounded weight matrix
  -- reads the weight matrix at the swapped index
  have hT (x : Vec Ideal S64x64 .f32) (k : Fin 64) :
      transpose S64x64 [1, 0] (truncf .bf16 x bitsLt_bf16_f32 : FVec Ideal S64x64 .bf16) transposes_S64x64_p1_0_S64x64 (ix2 k j)
        = x (ix2 j k) :=
    transpose_ix2_apply (a := 64) (b := 64) (truncf .bf16 x bitsLt_bf16_f32 : FVec Ideal S64x64 .bf16) _ k j
  -- the bias laid out as one row reads the bias
  have hB : shapeCast S1x64 v14 shapeCasts_S64_S1x64 (ix2 (0 : Fin 1) j) = v14 (ix1 j) :=
    shapeCast_a_1a_apply (a := 64) v14 _ 0 j
  -- a cast to the same shape changes nothing
  have hC : shapeCast S5000x64 v0 shapeCasts_S5000x64_S5000x64 = v0 := shapeCast_self v0 _
  simp only [hT, hB, hC, truncf_apply]
  rfl

/-- The block index of every window at every grid point: the three row-blocked windows sit at block (t, 0), the three
    whole windows at block 0 on every axis. Decided over the twenty points. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The block of the neighbour averages at point t, at (e, k), is the array at any index whose row is 5000·t + e and whose
    column is k. -/
theorem blk0_apply (c : Dev nD) (t : Fin cfg0.N) (e : Fin 5000) (k : Fin 64) (i : S100000x64.Idx)
    (h0 : (i 0).val = 5000 * t.val + e.val) (h1 : (i 1).val = k.val) :
    iblk0 (F := Ideal) V c 0 t (ix2 e k) = V c main_v22 i := by
  show V c main_v22 (((cfg0.win 0).blk t).view.emb (ix2 e k)) = V c main_v22 i
  obtain ⟨f0, f1, -⟩ := idx_facts t
  refine congrArg _ (funext fun a => Fin.ext ?_)
  match a with
  | ⟨0, _⟩ => show win0_0.index t (0 : Fin 2) * 5000 + 1 * e.val = (i 0).val; omega
  | ⟨1, _⟩ => show win0_0.index t (1 : Fin 2) * 64 + 1 * k.val = (i 1).val; omega

/-- The same for the block of the node features. -/
theorem blk1_apply (c : Dev nD) (t : Fin cfg0.N) (e : Fin 5000) (k : Fin 64) (i : S100000x64.Idx)
    (h0 : (i 0).val = 5000 * t.val + e.val) (h1 : (i 1).val = k.val) :
    iblk0 (F := Ideal) V c 1 t (ix2 e k) = V c main_arg0 i := by
  show V c main_arg0 (((cfg0.win 1).blk t).view.emb (ix2 e k)) = V c main_arg0 i
  obtain ⟨-, -, f0, f1, -⟩ := idx_facts t
  refine congrArg _ (funext fun a => Fin.ext ?_)
  match a with
  | ⟨0, _⟩ => show win0_1.index t (0 : Fin 2) * 5000 + 1 * e.val = (i 0).val; omega
  | ⟨1, _⟩ => show win0_1.index t (1 : Fin 2) * 64 + 1 * k.val = (i 1).val; omega

/-- The first weight matrix is staged whole: its block at any point, at (j, k), is the matrix at any index with those
    coordinates. -/
theorem blk2_apply (c : Dev nD) (t : Fin cfg0.N) (j k : Fin 64) (i : S64x64.Idx)
    (h0 : (i 0).val = j.val) (h1 : (i 1).val = k.val) :
    iblk0 (F := Ideal) V c 2 t (ix2 j k) = V c main_arg2 i := by
  show V c main_arg2 (((cfg0.win 2).blk t).view.emb (ix2 j k)) = V c main_arg2 i
  obtain ⟨-, -, -, -, f0, f1, -⟩ := idx_facts t
  refine congrArg _ (funext fun a => Fin.ext ?_)
  match a with
  | ⟨0, _⟩ => show win0_2.index t (0 : Fin 2) * 64 + 1 * j.val = (i 0).val; omega
  | ⟨1, _⟩ => show win0_2.index t (1 : Fin 2) * 64 + 1 * k.val = (i 1).val; omega

/-- The bias is staged whole. -/
theorem blk3_apply (c : Dev nD) (t : Fin cfg0.N) (j : Fin 64) (i : S64.Idx) (h0 : (i 0).val = j.val) :
    iblk0 (F := Ideal) V c 3 t (ix1 j) = V c main_arg3 i := by
  show V c main_arg3 (((cfg0.win 3).blk t).view.emb (ix1 j)) = V c main_arg3 i
  obtain ⟨-, -, -, -, -, -, f0, -⟩ := idx_facts t
  refine congrArg _ (funext fun a => Fin.ext ?_)
  match a with
  | ⟨0, _⟩ => show win0_3.index t (0 : Fin 1) * 64 + 1 * j.val = (i 0).val; omega

/-- The second weight matrix is staged whole. -/
theorem blk4_apply (c : Dev nD) (t : Fin cfg0.N) (j k : Fin 64) (i : S64x64.Idx)
    (h0 : (i 0).val = j.val) (h1 : (i 1).val = k.val) :
    iblk0 (F := Ideal) V c 4 t (ix2 j k) = V c main_arg4 i := by
  show V c main_arg4 (((cfg0.win 4).blk t).view.emb (ix2 j k)) = V c main_arg4 i
  obtain ⟨-, -, -, -, -, -, -, f0, f1, -⟩ := idx_facts t
  refine congrArg _ (funext fun a => Fin.ext ?_)
  match a with
  | ⟨0, _⟩ => show win0_4.index t (0 : Fin 2) * 64 + 1 * j.val = (i 0).val; omega
  | ⟨1, _⟩ => show win0_4.index t (1 : Fin 2) * 64 + 1 * k.val = (i 1).val; omega

/-- Entry (e, j) of the output block of point t sits in the output array at row 5000·t + e, column j. -/
theorem emb5_val (t : Fin cfg0.N) (e : Fin 5000) (j : Fin 64) (i : S100000x64.Idx)
    (hi : i = ((cfg0.win 5).blk t).view.emb (ix2 e j)) :
    (i 0).val = 5000 * t.val + e.val ∧ (i 1).val = j.val := by
  obtain ⟨-, -, -, -, -, -, -, -, -, f0, f1⟩ := idx_facts t
  subst hi
  constructor
  · show win0_5.index t (0 : Fin 2) * 5000 + 1 * e.val = _; omega
  · show win0_5.index t (1 : Fin 2) * 64 + 1 * j.val = _; omega

/-- What point t writes back is block t of the layer of the whole arrays: every entry of the stored block is the
    layer's entry from the same row of the input blocks, which are the same rows of the input arrays. -/
theorem flushed_eq (c : Dev nD) (t : Fin cfg0.N) :
    (dat0 (F := Ideal) V c).flushed 5 t = ((cfg0.win 5).blk t).view.read (Elt Ideal)
      (sage (V c main_v22) (V c main_arg0) (V c main_arg2) (V c main_arg4) (V c main_arg3)) := by
  show (cfg0.win 5).cut (grid0.coords t) ((dat0 (F := Ideal) V c).after 5 t) = _
  rw [after0_5]
  unfold out0_5
  rw [View.canon_unit_zero hz]
  simp only [View.ld_unit_zero (S := S5000x64) hz, View.ld_unit_zero (S := S64x64) hz, View.ld_unit_zero (S := S64) hz1]
  funext y
  obtain ⟨e, j, rfl⟩ : ∃ (e : Fin 5000) (j : Fin 64), y = ix2 e j := ⟨y 0, y 1, eq_ix2 y⟩
  obtain ⟨r0, r1⟩ := emb5_val t e j _ rfl
  refine (pay_apply (iblk0 V c 0 t) (iblk0 V c 1 t) (iblk0 V c 2 t) (iblk0 V c 4 t) (iblk0 V c 3 t) e j).trans ?_
  refine sageAt_congr z32 (fun k => ?_) (fun k => ?_) (fun k => ?_) (fun k => ?_) ?_
  · exact blk0_apply V c t e k _ r0 rfl
  · exact blk1_apply V c t e k _ r0 rfl
  · exact blk2_apply V c t j k _ r1 rfl
  · exact blk4_apply V c t j k _ r1 rfl
  · exact blk3_apply V c t j _ r1

/-- An index of the output array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v23).slice (win0_5.rect t)).set ↔ _
  rw [View.set_slice_whole, Rect.mem_set_unit]
  exact Iff.rfl

/-- The twenty row blocks tile the 100000 rows: row r lies in the block of point r / 5000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨-, -, -, -, -, -, -, -, -, f0, f1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- After the first kernel's run its output array holds the layer of the arrays it was entered with. -/
theorem final0 (c : Dev nD) :
    (dat0 (F := Ideal) V c).arrAt 5 cfg0.N
      = sage (V c main_v22) (V c main_arg0) (V c main_arg2) (V c main_arg4) (V c main_arg3) :=
  (dat0 (F := Ideal) V c).arrAt_eq_of_cover 5 _ (fun t _ => flushed_eq V c t) cover

end Cert.KernelIdeal.Region0

end
-- ==== Proof.KRegion1.lean ====
/-
  The second layer's kernel, read as a value: over a grid of 20 points, point t takes rows 5000·t … 5000·t + 4999 of the
  neighbour averages and of the node features, the two 64 × 64 weight matrices and the bias whole, and writes back the
  same rows of the layer's result. Each written row depends only on the same row of the two inputs, and the twenty row
  blocks tile the 100000 rows, so after the run the output array is the layer of the whole input arrays.
-/
import proofs.«161791_j38122129719954_1_alg».proof.Proof.Gen.KernelIdeal.Frame
import proofs.«161791_j38122129719954_1_alg».proof.Proof.LibSageLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.LibSage

variable (V : (c : Dev nD) → (b : Ref sig .tc) → Buf (Elt Ideal) ((c : Thread nD τ).loc b))

/-- The zero offsets of a rank-2 access, however spelt, are the zero function. -/
theorem hz : (![0, 0] : Fin 2 → Nat) = fun _ => 0 := funext fun a => by fin_cases a <;> rfl
/-- The same for a rank-1 access. -/
theorem hz1 : (![0] : Fin 1 → Nat) = fun _ => 0 := funext fun a => by fin_cases a <;> rfl

/-- Two entries of a layer agree when their rows, weight rows and bias entries agree term by term. -/
theorem sageAt_congr {K : ℕ} (z : EReal) {a a' x x' wl wl' wr wr' : Fin K → EReal} {b b' : EReal}
    (ha : ∀ k, a k = a' k) (hx : ∀ k, x k = x' k) (hwl : ∀ k, wl k = wl' k) (hwr : ∀ k, wr k = wr' k) (hb : b = b') :
    sageAt z a x wl wr b = sageAt z a' x' wl' wr' b' := by
  obtain rfl := funext ha
  obtain rfl := funext hx
  obtain rfl := funext hwl
  obtain rfl := funext hwr
  rw [hb]

/-- What the body stores, at entry (e, j) of its block: the layer's entry from row e of the two node blocks, row j of
    the two weight matrices and entry j of the bias. Here both node blocks pass through a cast to their own shape
    before they are rounded. -/
theorem pay_apply (v0 v3 : Vec Ideal S5000x64 .f32) (v6 v8 : Vec Ideal S64x64 .f32) (v15 : Vec Ideal S64 .f32)
    (e : Fin 5000) (j : Fin 64) :
    k1_pay1 (F := Ideal) v0 v3 v6 v8 v15 (ix2 e j)
      = sageAt z32 (fun k => v0 (ix2 e k)) (fun k => v3 (ix2 e k)) (fun k => v6 (ix2 j k)) (fun k => v8 (ix2 j k))
          (v15 (ix1 j)) := by
  unfold k1_pay1
  refine (unit_sage_apply (M := 5000) (K := 64) (N := 64) _ _ _ _ _ _ _ e j).trans ?_
  -- rounding to the narrower format is the identity over the extended reals, so a transposed rounded weight matrix
  -- reads the weight matrix at the swapped index
  have hT (x : Vec Ideal S64x64 .f32) (k : Fin 64) :
      transpose S64x64 [1, 0] (truncf .bf16 x bitsLt_bf16_f32 : FVec Ideal S64x64 .bf16) transposes_S64x64_p1_0_S64x64 (ix2 k j)
        = x (ix2 j k) :=
    transpose_ix2_apply (a := 64) (b := 64) (truncf .bf16 x bitsLt_bf16_f32 : FVec Ideal S64x64 .bf16) _ k j
  -- the bias laid out as one row reads the bias
  have hB : shapeCast S1x64 v15 shapeCasts_S64_S1x64 (ix2 (0 : Fin 1) j) = v15 (ix1 j) :=
    shapeCast_a_1a_apply (a := 64) v15 _ 0 j
  -- a cast to the same shape changes nothing, for either node block
  have hC (v : Vec Ideal S5000x64 .f32) : shapeCast S5000x64 v shapeCasts_S5000x64_S5000x64 = v := shapeCast_self v _
  simp only [hT, hB, hC, truncf_apply]
  rfl

/-- The block index of every window at every grid point: the three row-blocked windows sit at block (t, 0), the three
    whole windows at block 0 on every axis. Decided over the twenty points. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The block of the neighbour averages at point t, at (e, k), is the array at any index whose row is 5000·t + e and whose
    column is k. -/
theorem blk0_apply (c : Dev nD) (t : Fin cfg1.N) (e : Fin 5000) (k : Fin 64) (i : S100000x64.Idx)
    (h0 : (i 0).val = 5000 * t.val + e.val) (h1 : (i 1).val = k.val) :
    iblk1 (F := Ideal) V c 0 t (ix2 e k) = V c main_v42 i := by
  show V c main_v42 (((cfg1.win 0).blk t).view.emb (ix2 e k)) = V c main_v42 i
  obtain ⟨f0, f1, -⟩ := idx_facts t
  refine congrArg _ (funext fun a => Fin.ext ?_)
  match a with
  | ⟨0, _⟩ => show win1_0.index t (0 : Fin 2) * 5000 + 1 * e.val = (i 0).val; omega
  | ⟨1, _⟩ => show win1_0.index t (1 : Fin 2) * 64 + 1 * k.val = (i 1).val; omega

/-- The same for the block of the node features, which are the first layer's result. -/
theorem blk1_apply (c : Dev nD) (t : Fin cfg1.N) (e : Fin 5000) (k : Fin 64) (i : S100000x64.Idx)
    (h0 : (i 0).val = 5000 * t.val + e.val) (h1 : (i 1).val = k.val) :
    iblk1 (F := Ideal) V c 1 t (ix2 e k) = V c main_v23 i := by
  show V c main_v23 (((cfg1.win 1).blk t).view.emb (ix2 e k)) = V c main_v23 i
  obtain ⟨-, -, f0, f1, -⟩ := idx_facts t
  refine congrArg _ (funext fun a => Fin.ext ?_)
  match a with
  | ⟨0, _⟩ => show win1_1.index t (0 : Fin 2) * 5000 + 1 * e.val = (i 0).val; omega
  | ⟨1, _⟩ => show win1_1.index t (1 : Fin 2) * 64 + 1 * k.val = (i 1).val; omega

/-- The first weight matrix is staged whole: its block at any point, at (j, k), is the matrix at any index with those
    coordinates. -/
theorem blk2_apply (c : Dev nD) (t : Fin cfg1.N) (j k : Fin 64) (i : S64x64.Idx)
    (h0 : (i 0).val = j.val) (h1 : (i 1).val = k.val) :
    iblk1 (F := Ideal) V c 2 t (ix2 j k) = V c main_arg5 i := by
  show V c main_arg5 (((cfg1.win 2).blk t).view.emb (ix2 j k)) = V c main_arg5 i
  obtain ⟨-, -, -, -, f0, f1, -⟩ := idx_facts t
  refine congrArg _ (funext fun a => Fin.ext ?_)
  match a with
  | ⟨0, _⟩ => show win1_2.index t (0 : Fin 2) * 64 + 1 * j.val = (i 0).val; omega
  | ⟨1, _⟩ => show win1_2.index t (1 : Fin 2) * 64 + 1 * k.val = (i 1).val; omega

/-- The bias is staged whole. -/
theorem blk3_apply (c : Dev nD) (t : Fin cfg1.N) (j : Fin 64) (i : S64.Idx) (h0 : (i 0).val = j.val) :
    iblk1 (F := Ideal) V c 3 t (ix1 j) = V c main_arg6 i := by
  show V c main_arg6 (((cfg1.win 3).blk t).view.emb (ix1 j)) = V c main_arg6 i
  obtain ⟨-, -, -, -, -, -, f0, -⟩ := idx_facts t
  refine congrArg _ (funext fun a => Fin.ext ?_)
  match a with
  | ⟨0, _⟩ => show win1_3.index t (0 : Fin 1) * 64 + 1 * j.val = (i 0).val; omega

/-- The second weight matrix is staged whole. -/
theorem blk4_apply (c : Dev nD) (t : Fin cfg1.N) (j k : Fin 64) (i : S64x64.Idx)
    (h0 : (i 0).val = j.val) (h1 : (i 1).val = k.val) :
    iblk1 (F := Ideal) V c 4 t (ix2 j k) = V c main_arg7 i := by
  show V c main_arg7 (((cfg1.win 4).blk t).view.emb (ix2 j k)) = V c main_arg7 i
  obtain ⟨-, -, -, -, -, -, -, f0, f1, -⟩ := idx_facts t
  refine congrArg _ (funext fun a => Fin.ext ?_)
  match a with
  | ⟨0, _⟩ => show win1_4.index t (0 : Fin 2) * 64 + 1 * j.val = (i 0).val; omega
  | ⟨1, _⟩ => show win1_4.index t (1 : Fin 2) * 64 + 1 * k.val = (i 1).val; omega

/-- Entry (e, j) of the output block of point t sits in the output array at row 5000·t + e, column j. -/
theorem emb5_val (t : Fin cfg1.N) (e : Fin 5000) (j : Fin 64) (i : S100000x64.Idx)
    (hi : i = ((cfg1.win 5).blk t).view.emb (ix2 e j)) :
    (i 0).val = 5000 * t.val + e.val ∧ (i 1).val = j.val := by
  obtain ⟨-, -, -, -, -, -, -, -, -, f0, f1⟩ := idx_facts t
  subst hi
  constructor
  · show win1_5.index t (0 : Fin 2) * 5000 + 1 * e.val = _; omega
  · show win1_5.index t (1 : Fin 2) * 64 + 1 * j.val = _; omega

/-- What point t writes back is block t of the layer of the whole arrays: every entry of the stored block is the
    layer's entry from the same row of the input blocks, which are the same rows of the input arrays. -/
theorem flushed_eq (c : Dev nD) (t : Fin cfg1.N) :
    (dat1 (F := Ideal) V c).flushed 5 t = ((cfg1.win 5).blk t).view.read (Elt Ideal)
      (sage (V c main_v42) (V c main_v23) (V c main_arg5) (V c main_arg7) (V c main_arg6)) := by
  show (cfg1.win 5).cut (grid1.coords t) ((dat1 (F := Ideal) V c).after 5 t) = _
  rw [after1_5]
  unfold out1_5
  rw [View.canon_unit_zero hz]
  simp only [View.ld_unit_zero (S := S5000x64) hz, View.ld_unit_zero (S := S64x64) hz, View.ld_unit_zero (S := S64) hz1]
  funext y
  obtain ⟨e, j, rfl⟩ : ∃ (e : Fin 5000) (j : Fin 64), y = ix2 e j := ⟨y 0, y 1, eq_ix2 y⟩
  obtain ⟨r0, r1⟩ := emb5_val t e j _ rfl
  refine (pay_apply (iblk1 V c 0 t) (iblk1 V c 1 t) (iblk1 V c 2 t) (iblk1 V c 4 t) (iblk1 V c 3 t) e j).trans ?_
  refine sageAt_congr z32 (fun k => ?_) (fun k => ?_) (fun k => ?_) (fun k => ?_) ?_
  · exact blk0_apply V c t e k _ r0 rfl
  · exact blk1_apply V c t e k _ r0 rfl
  · exact blk2_apply V c t j k _ r1 rfl
  · exact blk4_apply V c t j k _ r1 rfl
  · exact blk3_apply V c t j _ r1

/-- An index of the output array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v43).slice (win1_5.rect t)).set ↔ _
  rw [View.set_slice_whole, Rect.mem_set_unit]
  exact Iff.rfl

/-- The twenty row blocks tile the 100000 rows: row r lies in the block of point r / 5000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have ht : t.val = (i 0).val / 5000 := rfl
  obtain ⟨-, -, -, -, -, -, -, -, -, f0, f1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- After the second kernel's run its output array holds the layer of the arrays it was entered with. -/
theorem final1 (c : Dev nD) :
    (dat1 (F := Ideal) V c).arrAt 5 cfg1.N
      = sage (V c main_v42) (V c main_v23) (V c main_arg5) (V c main_arg7) (V c main_arg6) :=
  (dat1 (F := Ideal) V c).arrAt_eq_of_cover 5 _ (fun t _ => flushed_eq V c t) cover

end Cert.KernelIdeal.Region1

end
-- ==== Proof.KRegion2.lean ====
/-
  The last kernel, read as a value: over a grid of 20 points, point t takes rows 5000·t … 5000·t + 4999 of the neighbour
  averages and of the node features, the two 32 × 64 weight matrices, the bias, and the head's padded 128 × 32 weight
  matrix and padded bias whole; it forms the layer's rows and from them the same rows of the head's 128 columns. The
  twenty row blocks tile the 100000 rows, so after the run the second output array is the head of the layer of the whole
  input arrays.
-/
import proofs.«161791_j38122129719954_1_alg».proof.Proof.Gen.KernelIdeal.Frame
import proofs.«161791_j38122129719954_1_alg».proof.Proof.LibSageLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.LibSage

variable (V : (c : Dev nD) → (b : Ref sig .tc) → Buf (Elt Ideal) ((c : Thread nD τ).loc b))

/-- The layer's payload at one entry: row e of the two node blocks against row j of the two weight blocks, plus the
    bias entry j, cut below at zero. The casts of a shape to itself and the narrowing of the element type change no
    value over the extended reals; the transposed weight read at (k, j) is the weight at (j, k). -/
theorem layer_entry (v0 v3 : Vec Ideal S5000x64 .f32) (v6 v8 : Vec Ideal S32x64 .f32) (v15 : Vec Ideal S32 .f32)
    (e : Fin 5000) (j : Fin 32) :
    k2_pay1 v0 v3 v6 v8 v15 (ix2 e j)
      = sageAt z32 (fun k => v0 (ix2 e k)) (fun k => v3 (ix2 e k)) (fun k => v6 (ix2 j k)) (fun k => v8 (ix2 j k))
          (v15 (ix1 j)) := by
  unfold k2_pay1
  refine (unit_sage_apply (M := 5000) (K := 64) (N := 32) _ _ _ _ _ _ _ e j).trans ?_
  have hl : ∀ k : Fin 64, transpose S64x32 [1, 0] (truncf (F := Ideal) .bf16 v6 bitsLt_bf16_f32)
        transposes_S32x64_p1_0_S64x32 (ix2 k j) = v6 (ix2 j k) :=
    fun k => transpose_ix2_apply (a := 32) (b := 64) _ _ k j
  have hr : ∀ k : Fin 64, transpose S64x32 [1, 0] (truncf (F := Ideal) .bf16 v8 bitsLt_bf16_f32)
        transposes_S32x64_p1_0_S64x32 (ix2 k j) = v8 (ix2 j k) :=
    fun k => transpose_ix2_apply (a := 32) (b := 64) _ _ k j
  have hb : shapeCast S1x32 v15 shapeCasts_S32_S1x32 (ix2 (0 : Fin 1) j) = v15 (ix1 j) :=
    shapeCast_a_1a_apply (a := 32) v15 _ 0 j
  simp only [truncf_apply, shapeCast_self, hl, hr, hb]
  rfl

/-- The head's payload at one entry: row e of the layer's block against row p of the head's weight block, plus the
    head's bias entry p. -/
theorem head_entry (v0 v3 : Vec Ideal S5000x64 .f32) (v6 v8 : Vec Ideal S32x64 .f32) (v15 : Vec Ideal S32 .f32)
    (v23 : Vec Ideal S128x32 .f32) (v28 : Vec Ideal S128 .f32) (e : Fin 5000) (p : Fin 128) :
    k2_pay2 v0 v3 v6 v8 v15 v23 v28 (ix2 e p)
      = (∑ k : Fin 32, k2_pay1 v0 v3 v6 v8 v15 (ix2 e k) * v23 (ix2 p k)) + v28 (ix1 p) := by
  unfold k2_pay2
  refine (unit_head_apply (M := 5000) (K := 32) (N := 128) _ _ _ _ e p).trans ?_
  have hw : ∀ k : Fin 32, transpose S32x128 [1, 0]
        (truncf (F := Ideal) .bf16 (shapeCast S128x32 v23 shapeCasts_S128x32_S128x32) bitsLt_bf16_f32)
        transposes_S128x32_p1_0_S32x128 (ix2 k p) = v23 (ix2 p k) := fun k => by
    rw [transpose_ix2_apply (a := 128) (b := 32) _ _ k p, truncf_apply, shapeCast_self]
  have hb : shapeCast S1x128 (shapeCast S128 v28 shapeCasts_S128_S128) shapeCasts_S128_S1x128 (ix2 (0 : Fin 1) p)
      = v28 (ix1 p) := by
    rw [shapeCast_a_1a_apply (a := 128) _ _ 0 p, shapeCast_self]
  simp only [truncf_apply, hw, hb]

/-- The zero offsets of a rank-2 access, as a constant function. -/
theorem hz2 : (![0, 0] : Fin 2 → Nat) = fun _ => 0 := funext fun a => by fin_cases a <;> rfl

/-- The zero offset of a rank-1 access, as a constant function. -/
theorem hz1 : (![0] : Fin 1 → Nat) = fun _ => 0 := funext fun a => by fin_cases a; rfl

/-- The index maps over the twenty points: the two node windows and the output window take row block t, column block 0;
    the weights, the biases and the head's matrix are taken whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0
    ∧ win2_8.index t (0 : Fin 2) = t.val ∧ win2_8.index t (1 : Fin 2) = 0 :=
  (by decide +kernel : ∀ t : Fin grid2.N, _)

/-- There are twenty points. -/
theorem pt_lt (t : Fin cfg2.N) : t.val < 20 := lt_of_lt_of_eq t.isLt N_2

/-- Row e of point t's block is row 5000·t + e of the array. -/
def row (t : Fin cfg2.N) (e : Fin 5000) : Fin 100000 := ⟨5000 * t.val + e.val, by have := pt_lt t; omega⟩

/-- Entry (e, k) of point t's block of the neighbour averages is entry (5000·t + e, k) of the array. -/
theorem rd0 (c : Dev nD) (t : Fin cfg2.N) (e : Fin 5000) (k : Fin 64) :
    iblk2 V c 0 t (ix2 e k) = V c main_v62 (ix2 (row t e) k) := by
  obtain ⟨h0, h1, -⟩ := idx_facts t
  unfold iblk2
  show V c main_v62 (((cfg2.win 0).blk t).view.emb (ix2 e k)) = V c main_v62 _
  refine congrArg _ (funext fun a => Fin.ext ?_)
  match a with
  | ⟨0, _⟩ => show win2_0.index t (0 : Fin 2) * 5000 + 1 * e.val = 5000 * t.val + e.val; omega
  | ⟨1, _⟩ => show win2_0.index t (1 : Fin 2) * 64 + 1 * k.val = k.val; omega

/-- The same for the node features' block. -/
theorem rd1 (c : Dev nD) (t : Fin cfg2.N) (e : Fin 5000) (k : Fin 64) :
    iblk2 V c 1 t (ix2 e k) = V c main_v43 (ix2 (row t e) k) := by
  obtain ⟨-, -, h0, h1, -⟩ := idx_facts t
  unfold iblk2
  show V c main_v43 (((cfg2.win 1).blk t).view.emb (ix2 e k)) = V c main_v43 _
  refine congrArg _ (funext fun a => Fin.ext ?_)
  match a with
  | ⟨0, _⟩ => show win2_1.index t (0 : Fin 2) * 5000 + 1 * e.val = 5000 * t.val + e.val; omega
  | ⟨1, _⟩ => show win2_1.index t (1 : Fin 2) * 64 + 1 * k.val = k.val; omega

/-- The first weight matrix is staged whole: its block is the array. -/
theorem rd2 (c : Dev nD) (t : Fin cfg2.N) (j : Fin 32) (k : Fin 64) :
    iblk2 V c 2 t (ix2 j k) = V c main_arg8 (ix2 j k) := by
  obtain ⟨-, -, -, -, h0, h1, -⟩ := idx_facts t
  unfold iblk2
  show V c main_arg8 (((cfg2.win 2).blk t).view.emb (ix2 j k)) = V c main_arg8 _
  refine congrArg _ (funext fun a => Fin.ext ?_)
  match a with
  | ⟨0, _⟩ => show win2_2.index t (0 : Fin 2) * 32 + 1 * j.val = j.val; omega
  | ⟨1, _⟩ => show win2_2.index t (1 : Fin 2) * 64 + 1 * k.val = k.val; omega

/-- The layer's bias is staged whole. -/
theorem rd3 (c : Dev nD) (t : Fin cfg2.N) (j : Fin 32) :
    iblk2 V c 3 t (ix1 j) = V c main_arg9 (ix1 j) := by
  obtain ⟨-, -, -, -, -, -, h0, -⟩ := idx_facts t
  unfold iblk2
  show V c main_arg9 (((cfg2.win 3).blk t).view.emb (ix1 j)) = V c main_arg9 _
  refine congrArg _ (funext fun a => Fin.ext ?_)
  match a with
  | ⟨0, _⟩ => show win2_3.index t (0 : Fin 1) * 32 + 1 * j.val = j.val; omega

/-- The second weight matrix is staged whole. -/
theorem rd4 (c : Dev nD) (t : Fin cfg2.N) (j : Fin 32) (k : Fin 64) :
    iblk2 V c 4 t (ix2 j k) = V c main_arg10 (ix2 j k) := by
  obtain ⟨-, -, -, -, -, -, -, h0, h1, -⟩ := idx_facts t
  unfold iblk2
  show V c main_arg10 (((cfg2.win 4).blk t).view.emb (ix2 j k)) = V c main_arg10 _
  refine congrArg _ (funext fun a => Fin.ext ?_)
  match a with
  | ⟨0, _⟩ => show win2_4.index t (0 : Fin 2) * 32 + 1 * j.val = j.val; omega
  | ⟨1, _⟩ => show win2_4.index t (1 : Fin 2) * 64 + 1 * k.val = k.val; omega

/-- The head's weight matrix is staged whole. -/
theorem rd5 (c : Dev nD) (t : Fin cfg2.N) (p : Fin 128) (k : Fin 32) :
    iblk2 V c 5 t (ix2 p k) = V c main_v66 (ix2 p k) := by
  obtain ⟨-, -, -, -, -, -, -, -, -, h0, h1, -⟩ := idx_facts t
  unfold iblk2
  show V c main_v66 (((cfg2.win 5).blk t).view.emb (ix2 p k)) = V c main_v66 _
  refine congrArg _ (funext fun a => Fin.ext ?_)
  match a with
  | ⟨0, _⟩ => show win2_5.index t (0 : Fin 2) * 128 + 1 * p.val = p.val; omega
  | ⟨1, _⟩ => show win2_5.index t (1 : Fin 2) * 32 + 1 * k.val = k.val; omega

/-- The head's bias is staged whole. -/
theorem rd6 (c : Dev nD) (t : Fin cfg2.N) (p : Fin 128) :
    iblk2 V c 6 t (ix1 p) = V c main_v70 (ix1 p) := by
  obtain ⟨-, -, -, -, -, -, -, -, -, -, -, h0, -⟩ := idx_facts t
  unfold iblk2
  show V c main_v70 (((cfg2.win 6).blk t).view.emb (ix1 p)) = V c main_v70 _
  refine congrArg _ (funext fun a => Fin.ext ?_)
  match a with
  | ⟨0, _⟩ => show win2_6.index t (0 : Fin 1) * 128 + 1 * p.val = p.val; omega

/-- Entry (e, p) of point t's output block sits at (5000·t + e, p) of the output array. -/
theorem emb8 (t : Fin cfg2.N) (e : Fin 5000) (p : Fin 128) :
    ((cfg2.win 8).blk t).view.emb (ix2 e p) = ix2 (row t e) p := by
  obtain ⟨-, -, -, -, -, -, -, -, -, -, -, -, h0, h1⟩ := idx_facts t
  refine funext fun a => Fin.ext ?_
  match a with
  | ⟨0, _⟩ => show win2_8.index t (0 : Fin 2) * 5000 + 1 * e.val = 5000 * t.val + e.val; omega
  | ⟨1, _⟩ => show win2_8.index t (1 : Fin 2) * 128 + 1 * p.val = p.val; omega

/-- What point t writes back is block t of the head of the layer of the whole arrays. -/
theorem flushed_eq (c : Dev nD) (t : Fin cfg2.N) :
    (dat2 (F := Ideal) V c).flushed 8 t = ((cfg2.win 8).blk t).view.read (Elt Ideal)
      (headPad (sage (V c main_v62) (V c main_v43) (V c main_arg8) (V c main_arg10) (V c main_arg9))
        (V c main_v66) (V c main_v70)) := by
  show (cfg2.win 8).cut (grid2.coords t) ((dat2 (F := Ideal) V c).after 8 t) = _
  rw [after2_8]
  unfold out2_8
  rw [View.canon_unit_zero hz2]
  simp only [View.ld_unit_zero (S := S5000x64) hz2, View.ld_unit_zero (S := S32x64) hz2,
    View.ld_unit_zero (S := S128x32) hz2, View.ld_unit_zero (S := S32) hz1, View.ld_unit_zero (S := S128) hz1]
  funext y
  obtain ⟨e, p, rfl⟩ : ∃ (e : Fin 5000) (p : Fin 128), y = ix2 e p := ⟨y 0, y 1, eq_ix2 y⟩
  show k2_pay2 (iblk2 V c 0 t) (iblk2 V c 1 t) (iblk2 V c 2 t) (iblk2 V c 4 t) (iblk2 V c 3 t) (iblk2 V c 5 t)
      (iblk2 V c 6 t) (ix2 e p)
    = headPad (sage (V c main_v62) (V c main_v43) (V c main_arg8) (V c main_arg10) (V c main_arg9))
        (V c main_v66) (V c main_v70) (((cfg2.win 8).blk t).view.emb (ix2 e p))
  rw [emb8, headPad_ix2, head_entry]
  simp only [layer_entry, sage_ix2, rd0, rd1, rd2, rd3, rd4, rd5, rd6]

/-- An index of the output array lies in point t's block iff each coordinate lies in the block's range on its axis. -/
theorem mem_blk (t : Fin cfg2.N) (i : S100000x128.Idx) :
    i ∈ ((cfg2.win 8).blk t).view.set ↔ ∀ a : Fin 2, win2_8.index t a * S5000x128.size a ≤ (i a).val
      ∧ (i a).val < win2_8.index t a * S5000x128.size a + S5000x128.size a := by
  show i ∈ ((View.whole main_v71_1).slice (win2_8.rect t)).set ↔ _
  rw [View.set_slice_whole, Rect.mem_set_unit]
  exact Iff.rfl

/-- The twenty row blocks tile the array: row r lies in the block of point r / 5000, and every point writes back. -/
theorem cover (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  have hq : (i 0).val / 5000 < cfg2.N := lt_of_lt_of_eq (by omega : (i 0).val / 5000 < 20) N_2.symm
  obtain ⟨-, -, -, -, -, -, -, -, -, -, -, -, h0, h1⟩ := idx_facts ⟨(i 0).val / 5000, hq⟩
  refine ⟨⟨(i 0).val / 5000, hq⟩, flush2_8 _, ?_⟩
  rw [mem_blk]
  intro a
  match a with
  | ⟨0, _⟩ =>
    show win2_8.index ⟨(i 0).val / 5000, hq⟩ (0 : Fin 2) * 5000 ≤ (i 0).val
      ∧ (i 0).val < win2_8.index ⟨(i 0).val / 5000, hq⟩ (0 : Fin 2) * 5000 + 5000
    have hv : (⟨(i 0).val / 5000, hq⟩ : Fin cfg2.N).val = (i 0).val / 5000 := rfl
    omega
  | ⟨1, _⟩ =>
    show win2_8.index ⟨(i 0).val / 5000, hq⟩ (1 : Fin 2) * 128 ≤ (i 1).val
      ∧ (i 1).val < win2_8.index ⟨(i 0).val / 5000, hq⟩ (1 : Fin 2) * 128 + 128
    omega

/-- After the last kernel's run its second output array holds the padded head of the layer of the arrays it was entered
    with. -/
theorem final2 (c : Dev nD) :
    (dat2 (F := Ideal) V c).arrAt 8 cfg2.N
      = headPad (sage (V c main_v62) (V c main_v43) (V c main_arg8) (V c main_arg10) (V c main_arg9))
          (V c main_v66) (V c main_v70) :=
  (dat2 (F := Ideal) V c).arrAt_eq_of_cover 8 _ (fun t _ => flushed_eq V c t) cover

end Cert.KernelIdeal.Region2

end
-- ==== Proof.LibScatterSetRow.lean ====
/-
  Writing one row of a matrix, or one entry of a vector, by a scatter whose body returns the update: the row (the entry)
  at index 0 is replaced by the update and read back. The scatter walks the update's elements in order, each replacing
  the element of the result it lands on; with one start index equal to 0 and a window of one whole row, update element k
  lands on (0, k), distinct elements land on distinct places, so the result at (0, k) is the update at k.
-/
import Idealize.ShloMosaic.PureOps.Ideal
import Idealize.ShloMosaic.Lib.ValueIdx

noncomputable section

open Idealize.ShloMosaic Idealize.ShloMosaic.ValueIdx

namespace Cert.LibScatterSetRow

/-! ## A left fold of point updates, read at one place

The fold is over a list of positions; each step `g r n` changes the running function `r` at the place position `n` lands
on, if any. Only two facts about a step are used, both at the one place `i₀` that is read: a position that lands on `i₀`
(`lands n`) makes the value there `v n`, whatever it was, and a position that does not leaves it as it was. -/

section Fold
variable {ι β α : Type}

/-- Positions that all miss the place `i₀` leave the value there unchanged. -/
theorem foldl_apply_of_forall_miss (g : (β → α) → ι → β → α) (lands : ι → Prop) (i₀ : β)
    (hmiss : ∀ r n, ¬ lands n → g r n i₀ = r i₀) :
    ∀ (l : List ι) (x : β → α), (∀ n ∈ l, ¬ lands n) → l.foldl g x i₀ = x i₀ := by
  intro l
  induction l with
  | nil => intro x _; rfl
  | cons m l ih =>
    intro x h
    rw [List.foldl_cons, ih _ fun n hn => h n (List.mem_cons_of_mem _ hn)]
    exact hmiss _ _ (h m (List.mem_cons_self ..))

/-- If some position of the list lands on `i₀`, and every position that does carries the same value `a`, the fold's
    value at `i₀` is `a`: the last position that lands there decides, and the ones after it miss. (Induction on the list
    from its head, the starting function arbitrary: either a later position lands on `i₀` and the head does not matter, or
    none does, the tail leaves `i₀` alone and the head is the position that lands.) -/
theorem foldl_apply_of_hit (g : (β → α) → ι → β → α) (lands : ι → Prop) (v : ι → α) (i₀ : β) (a : α)
    (hhit : ∀ r n, lands n → g r n i₀ = v n) (hmiss : ∀ r n, ¬ lands n → g r n i₀ = r i₀) :
    ∀ (l : List ι) (x : β → α), (∀ n ∈ l, lands n → v n = a) → (∃ n ∈ l, lands n) → l.foldl g x i₀ = a := by
  intro l
  induction l with
  | nil => intro x _ hex; obtain ⟨n, hn, _⟩ := hex; exact absurd hn List.not_mem_nil
  | cons m l ih =>
    intro x hall hex
    rw [List.foldl_cons]
    by_cases hl : ∃ n ∈ l, lands n
    · exact ih _ (fun n hn => hall n (List.mem_cons_of_mem _ hn)) hl
    · have hl' : ∀ n ∈ l, ¬ lands n := fun n hn hp => hl ⟨n, hn, hp⟩
      rw [foldl_apply_of_forall_miss g lands i₀ hmiss l _ hl']
      obtain ⟨n, hn, hp⟩ := hex
      rcases List.mem_cons.1 hn with rfl | hn'
      · rw [hhit _ _ hp]; exact hall _ (List.mem_cons_self ..) hp
      · exact absurd hp (hl' n hn')

end Fold

/-- The scatter indices here are one index vector of one component: every index into them is the one at coordinate 0. -/
theorem si_eq (i : (⟨1, ![1]⟩ : Shape).Idx) : i = ix1 (0 : Fin 1) :=
  (eq_ix1 i).trans (congrArg ix1 ((fun a b : Fin 1 => Subsingleton.elim a b) _ _))

/-! ## Where an update element lands: a row of a matrix

Operand P × K, update of K entries, dimension numbers: the update's axis 0 is the window axis, the operand's axis 0 is
inserted (the window has one row) and is the axis the start index names. On axis 0 the start is the index read (0) and
the window coordinate is 0; on axis 1 the start is 0 (no start index names it) and the window coordinate is the update's
coordinate. So update element j lands on (0, j). -/

/-- The dimension numbers written out, their conditions `w` carried along. -/
abbrev rowDims (P K : ℕ) (w : ScatterDims.WF ⟨2, ![P, K]⟩ ⟨1, ![1]⟩ ⟨1, ![K]⟩ [0] [0] [0] 0) :
    ScatterDims ⟨2, ![P, K]⟩ ⟨1, ![1]⟩ ⟨1, ![K]⟩ := ScatterDims.mk [0] [0] [0] 0 w

/-- Axis 0 is named by the start index, whose one component is read at 0: the window starts at row 0. -/
theorem rowDims_start_0 {P K : ℕ} (w) (idx : IVec ⟨1, ![1]⟩ 32) (hidx : idx (ix1 (0 : Fin 1)) = 0#32)
    (j : (⟨1, ![K]⟩ : Shape).Idx) : (rowDims P K w).start j idx 0 = 0 := by
  unfold ScatterDims.start
  rw [dif_pos (show (0 : Fin 2) ∈ (rowDims P K w).scatterDimsToOperandDims from List.mem_singleton.mpr rfl),
    si_eq (ScatterDims.siIdx _ _ _), hidx]
  rfl

/-- Axis 1 is named by no start index: the window starts at column 0. -/
theorem rowDims_start_1 {P K : ℕ} (w) (idx : IVec ⟨1, ![1]⟩ 32) (j : (⟨1, ![K]⟩ : Shape).Idx) :
    (rowDims P K w).start j idx 1 = 0 := by
  unfold ScatterDims.start
  rw [dif_neg (show (1 : Fin 2) ∉ (rowDims P K w).scatterDimsToOperandDims from
    (by decide : (1 : Fin 2) ∉ ([0] : List (Fin 2))))]

/-- Axis 0 is an inserted window axis: the window coordinate there is 0. -/
theorem rowDims_window_0 {P K : ℕ} (w) (j : (⟨1, ![K]⟩ : Shape).Idx) : (rowDims P K w).window j 0 = 0 := by
  unfold ScatterDims.window
  rw [dif_neg (show (0 : Fin 2) ∉ (rowDims P K w).sKept from
    (by decide : (0 : Fin 2) ∉ (List.finRange 2).filter (fun a => a ∉ ([0] : List (Fin 2)))))]

/-- Axis 1 is the one kept axis, and the update's one window axis goes to it: the window coordinate is the update's. -/
theorem rowDims_window_1 {P K : ℕ} (w) (j : (⟨1, ![K]⟩ : Shape).Idx) : (rowDims P K w).window j 1 = (j 0).val := by
  unfold ScatterDims.window
  rw [dif_pos (show (1 : Fin 2) ∈ (rowDims P K w).sKept from
    (by decide : (1 : Fin 2) ∈ (List.finRange 2).filter (fun a => a ∉ ([0] : List (Fin 2)))))]
  rfl

/-- Update element `j` lands on `(0, j)`, inside the operand as soon as it has a row. -/
theorem resultIdx_row0 {P K : ℕ} (hP : 0 < P) (d : ScatterDims ⟨2, ![P, K]⟩ ⟨1, ![1]⟩ ⟨1, ![K]⟩)
    (hu : d.updateWindowDims = [0]) (hi : d.insertedWindowDims = [0]) (hs : d.scatterDimsToOperandDims = [0])
    (hv : d.indexVectorDim = 0)
    (idx : IVec ⟨1, ![1]⟩ 32) (hidx : idx (ix1 (0 : Fin 1)) = 0#32) (j : (⟨1, ![K]⟩ : Shape).Idx) :
    d.resultIdx? j idx = some (ix2 (⟨0, hP⟩ : Fin P) (⟨(j 0).val, (j 0).isLt⟩ : Fin K)) := by
  obtain ⟨uw, iw, sd, iv, wf⟩ := d
  dsimp only at hu hi hs hv
  subst hu hi hs hv
  show (rowDims P K wf).resultIdx? j idx = _
  unfold ScatterDims.resultIdx?
  have h : ∀ a : Fin 2, 0 ≤ (rowDims P K wf).start j idx a + (rowDims P K wf).window j a ∧
      (rowDims P K wf).start j idx a + (rowDims P K wf).window j a < (⟨2, ![P, K]⟩ : Shape).size a := by
    intro a
    match a with
    | ⟨0, _⟩ =>
      show 0 ≤ (rowDims P K wf).start j idx 0 + (rowDims P K wf).window j 0 ∧
        (rowDims P K wf).start j idx 0 + (rowDims P K wf).window j 0 < (P : ℤ)
      rw [rowDims_start_0 wf idx hidx, rowDims_window_0]; simpa using hP
    | ⟨1, _⟩ =>
      show 0 ≤ (rowDims P K wf).start j idx 1 + (rowDims P K wf).window j 1 ∧
        (rowDims P K wf).start j idx 1 + (rowDims P K wf).window j 1 < (K : ℤ)
      rw [rowDims_start_1, rowDims_window_1]; have : (j 0).val < K := (j 0).isLt; constructor <;> omega
  rw [dif_pos h]
  congr 1
  funext a
  match a with
  | ⟨0, _⟩ =>
    refine Fin.ext ?_
    show ((rowDims P K wf).start j idx 0 + (rowDims P K wf).window j 0).toNat = 0
    rw [rowDims_start_0 wf idx hidx, rowDims_window_0]; rfl
  | ⟨1, _⟩ =>
    refine Fin.ext ?_
    show ((rowDims P K wf).start j idx 1 + (rowDims P K wf).window j 1).toNat = (j 0).val
    rw [rowDims_start_1, rowDims_window_1]; simp

/-- Row 0 of a P × K matrix set to a vector of K entries by a scatter with one start index 0, read at (0, k): the
    update's entry k. Update element j lands on (0, j), so the elements that land on (0, k) are those with coordinate
    k — there is one, and it carries the update's entry k. -/
theorem scatter_set_row0_apply {P K : ℕ} {α : Type} (hP : 0 < P) (d : ScatterDims ⟨2, ![P, K]⟩ ⟨1, ![1]⟩ ⟨1, ![K]⟩)
    (hu : d.updateWindowDims = [0]) (hi : d.insertedWindowDims = [0]) (hs : d.scatterDimsToOperandDims = [0])
    (hv : d.indexVectorDim = 0)
    (x : (⟨2, ![P, K]⟩ : Shape).Idx → α) (idx : IVec ⟨1, ![1]⟩ 32) (hidx : idx (ix1 (0 : Fin 1)) = 0#32)
    (upd : (⟨1, ![K]⟩ : Shape).Idx → α) (k : Fin K) :
    Host.scatter d (fun _ b => b) x idx upd (ix2 (⟨0, hP⟩ : Fin P) k) = upd (ix1 k) := by
  unfold Host.scatter
  refine foldl_apply_of_hit _ (fun n => ((⟨1, ![K]⟩ : Shape).rowMajor.symm n 0).val = k.val)
    (fun n => upd ((⟨1, ![K]⟩ : Shape).rowMajor.symm n)) _ _ ?_ ?_ _ _ ?_ ?_
  · -- an element with coordinate k replaces the value at (0, k) by its own
    intro r n hn
    simp only [resultIdx_row0 hP d hu hi hs hv idx hidx]
    exact if_pos (congrArg (ix2 (⟨0, hP⟩ : Fin P)) (Fin.ext hn.symm))
  · -- an element with another coordinate lands in another column
    intro r n hn
    simp only [resultIdx_row0 hP d hu hi hs hv idx hidx]
    refine if_neg ?_
    intro h
    exact hn (congrArg Fin.val (congrFun h 1)).symm
  · -- an element with coordinate k is the update's entry k
    intro n _ hn
    have e : (⟨1, ![K]⟩ : Shape).rowMajor.symm n = ix1 k := by
      funext a
      match a with
      | ⟨0, _⟩ => exact Fin.ext hn
    exact congrArg upd e
  · -- and the walk meets it: the position of the index with coordinate k
    exact ⟨(⟨1, ![K]⟩ : Shape).rowMajor (ix1 k), List.mem_finRange _, by rw [Equiv.symm_apply_apply]; rfl⟩

/-! ## Where the update lands: an entry of a vector

Operand of P entries, a scalar update (no window axis), the operand's one axis inserted and named by the start index: the
start there is the index read (0) and the window coordinate 0, so the one update element lands on 0. -/

/-- The dimension numbers written out, their conditions `w` carried along. -/
abbrev eltDims (P : ℕ) (w : ScatterDims.WF ⟨1, ![P]⟩ ⟨1, ![1]⟩ ⟨0, ![]⟩ [] [0] [0] 0) :
    ScatterDims ⟨1, ![P]⟩ ⟨1, ![1]⟩ ⟨0, ![]⟩ := ScatterDims.mk [] [0] [0] 0 w

/-- The one axis is named by the start index, whose one component is read at 0: the window starts at 0. -/
theorem eltDims_start_0 {P : ℕ} (w) (idx : IVec ⟨1, ![1]⟩ 32) (hidx : idx (ix1 (0 : Fin 1)) = 0#32)
    (j : (⟨0, ![]⟩ : Shape).Idx) : (eltDims P w).start j idx 0 = 0 := by
  unfold ScatterDims.start
  rw [dif_pos (show (0 : Fin 1) ∈ (eltDims P w).scatterDimsToOperandDims from List.mem_singleton.mpr rfl),
    si_eq (ScatterDims.siIdx _ _ _), hidx]
  rfl

/-- The one axis is an inserted window axis: the window coordinate there is 0. -/
theorem eltDims_window_0 {P : ℕ} (w) (j : (⟨0, ![]⟩ : Shape).Idx) : (eltDims P w).window j 0 = 0 := by
  unfold ScatterDims.window
  rw [dif_neg (show (0 : Fin 1) ∉ (eltDims P w).sKept from
    (by decide : (0 : Fin 1) ∉ (List.finRange 1).filter (fun a => a ∉ ([0] : List (Fin 1)))))]

/-- The update element lands on entry 0, inside the operand as soon as it has an entry. -/
theorem resultIdx_elt0 {P : ℕ} (hP : 0 < P) (d : ScatterDims ⟨1, ![P]⟩ ⟨1, ![1]⟩ ⟨0, ![]⟩)
    (hu : d.updateWindowDims = []) (hi : d.insertedWindowDims = [0]) (hs : d.scatterDimsToOperandDims = [0])
    (hv : d.indexVectorDim = 0)
    (idx : IVec ⟨1, ![1]⟩ 32) (hidx : idx (ix1 (0 : Fin 1)) = 0#32) (j : (⟨0, ![]⟩ : Shape).Idx) :
    d.resultIdx? j idx = some (ix1 (⟨0, hP⟩ : Fin P)) := by
  obtain ⟨uw, iw, sd, iv, wf⟩ := d
  dsimp only at hu hi hs hv
  subst hu hi hs hv
  show (eltDims P wf).resultIdx? j idx = _
  unfold ScatterDims.resultIdx?
  have h : ∀ a : Fin 1, 0 ≤ (eltDims P wf).start j idx a + (eltDims P wf).window j a ∧
      (eltDims P wf).start j idx a + (eltDims P wf).window j a < (⟨1, ![P]⟩ : Shape).size a := by
    intro a
    match a with
    | ⟨0, _⟩ =>
      show 0 ≤ (eltDims P wf).start j idx 0 + (eltDims P wf).window j 0 ∧
        (eltDims P wf).start j idx 0 + (eltDims P wf).window j 0 < (P : ℤ)
      rw [eltDims_start_0 wf idx hidx, eltDims_window_0]; simpa using hP
  rw [dif_pos h]
  congr 1
  funext a
  match a with
  | ⟨0, _⟩ =>
    refine Fin.ext ?_
    show ((eltDims P wf).start j idx 0 + (eltDims P wf).window j 0).toNat = 0
    rw [eltDims_start_0 wf idx hidx, eltDims_window_0]; rfl

/-- Entry 0 of a vector of P entries set to a scalar by a scatter with one start index 0, read at 0: the scalar. The
    update has one element, it lands on entry 0, and it is the scalar. -/
theorem scatter_set_elt0_apply {P : ℕ} {α : Type} (hP : 0 < P) (d : ScatterDims ⟨1, ![P]⟩ ⟨1, ![1]⟩ ⟨0, ![]⟩)
    (hu : d.updateWindowDims = []) (hi : d.insertedWindowDims = [0]) (hs : d.scatterDimsToOperandDims = [0])
    (hv : d.indexVectorDim = 0)
    (x : (⟨1, ![P]⟩ : Shape).Idx → α) (idx : IVec ⟨1, ![1]⟩ 32) (hidx : idx (ix1 (0 : Fin 1)) = 0#32)
    (upd : (⟨0, ![]⟩ : Shape).Idx → α) :
    Host.scatter d (fun _ b => b) x idx upd (ix1 (⟨0, hP⟩ : Fin P)) = upd ix0 := by
  unfold Host.scatter
  refine foldl_apply_of_hit _ (fun _ => True)
    (fun n => upd ((⟨0, ![]⟩ : Shape).rowMajor.symm n)) _ _ ?_ ?_ _ _ ?_ ?_
  · -- every update element lands on entry 0 and replaces the value there by its own
    intro r n _
    simp only [resultIdx_elt0 hP d hu hi hs hv idx hidx, ↓reduceIte]
  · intro r n hn
    exact absurd trivial hn
  · -- a scalar has one index
    intro n _ _
    rw [eq_ix0 ((⟨0, ![]⟩ : Shape).rowMajor.symm n)]
  · -- and one element, which the walk meets
    exact ⟨(⟨0, ![]⟩ : Shape).rowMajor ix0, List.mem_finRange _, trivial⟩

end Cert.LibScatterSetRow

end
-- ==== Proof.KValue.lean ====
/-
  The kernel's program, read as a value: the three kernel calls' results and the host operations between them, composed.
  The first call's output is the first layer of the averaged and the plain node features; the host averages it; the
  second call's output is the second layer; the host averages again and pads the head's weights; the last call's second
  output is the head, 128 columns wide, of the third layer; its first column is the result. Column 0 of the padded head
  uses row 0 of the padded weights and entry 0 of the padded bias, which are the head's own weight row and bias.
-/
import proofs.«161791_j38122129719954_1_alg».proof.Proof.KHost
import proofs.«161791_j38122129719954_1_alg».proof.Proof.KRegion0
import proofs.«161791_j38122129719954_1_alg».proof.Proof.KRegion1
import proofs.«161791_j38122129719954_1_alg».proof.Proof.KRegion2
import proofs.«161791_j38122129719954_1_alg».proof.Proof.KRun
import proofs.«161791_j38122129719954_1_alg».proof.Proof.LibScatterSetRow
import proofs.«161791_j38122129719954_1_alg».proof.Proof.LibSageLayer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.StableHlo Idealize.ShloMosaic.ValueIdx

namespace Cert.KernelIdeal.KValue

open Cert.KernelIdeal Cert.KernelIdeal.Facts₀ Cert.KernelIdeal.Facts Cert.KernelIdeal.KHost Cert.LibSage

variable (m : (ℓ : Loc nD τ sig) → Buf (Elt Ideal) ℓ) (ρ : Dev nD → PrngReg) (c : Dev nD)

/-- The first layer's result, of the launch memory. -/
abbrev h1 : FVec Ideal S100000x64 .f32 :=
  sage (avg (m ((c : Thread nD τ).loc main_arg1)) (m ((c : Thread nD τ).loc main_arg0))) (m ((c : Thread nD τ).loc main_arg0)) (m ((c : Thread nD τ).loc main_arg2)) (m ((c : Thread nD τ).loc main_arg4)) (m ((c : Thread nD τ).loc main_arg3))

/-- The second layer's result. -/
abbrev h2 : FVec Ideal S100000x64 .f32 :=
  sage (avg (m ((c : Thread nD τ).loc main_arg1)) (h1 m c)) (h1 m c) (m ((c : Thread nD τ).loc main_arg5)) (m ((c : Thread nD τ).loc main_arg7)) (m ((c : Thread nD τ).loc main_arg6))

/-- The third layer's result. -/
abbrev h3 : FVec Ideal S100000x32 .f32 :=
  sage (avg (m ((c : Thread nD τ).loc main_arg1)) (h2 m c)) (h2 m c) (m ((c : Thread nD τ).loc main_arg8)) (m ((c : Thread nD τ).loc main_arg10)) (m ((c : Thread nD τ).loc main_arg9))

/-! ## Up to the first call -/

theorem W1_arg0 : Gen.W1 m ρ c (Proc.devRef .tc main_arg0) = m ((c : Thread nD τ).loc main_arg0) := keep0_arg0 _
theorem W1_arg2 : Gen.W1 m ρ c (Proc.devRef .tc main_arg2) = m ((c : Thread nD τ).loc main_arg2) := keep0_arg2 _
theorem W1_arg3 : Gen.W1 m ρ c (Proc.devRef .tc main_arg3) = m ((c : Thread nD τ).loc main_arg3) := keep0_arg3 _
theorem W1_arg4 : Gen.W1 m ρ c (Proc.devRef .tc main_arg4) = m ((c : Thread nD τ).loc main_arg4) := keep0_arg4 _
theorem W1_arg5 : Gen.W1 m ρ c (Proc.devRef .tc main_arg5) = m ((c : Thread nD τ).loc main_arg5) := keep0_arg5 _
theorem W1_arg6 : Gen.W1 m ρ c (Proc.devRef .tc main_arg6) = m ((c : Thread nD τ).loc main_arg6) := keep0_arg6 _
theorem W1_arg7 : Gen.W1 m ρ c (Proc.devRef .tc main_arg7) = m ((c : Thread nD τ).loc main_arg7) := keep0_arg7 _
theorem W1_arg8 : Gen.W1 m ρ c (Proc.devRef .tc main_arg8) = m ((c : Thread nD τ).loc main_arg8) := keep0_arg8 _
theorem W1_arg9 : Gen.W1 m ρ c (Proc.devRef .tc main_arg9) = m ((c : Thread nD τ).loc main_arg9) := keep0_arg9 _
theorem W1_arg10 : Gen.W1 m ρ c (Proc.devRef .tc main_arg10) = m ((c : Thread nD τ).loc main_arg10) := keep0_arg10 _
theorem W1_arg11 : Gen.W1 m ρ c (Proc.devRef .tc main_arg11) = m ((c : Thread nD τ).loc main_arg11) := keep0_arg11 _
theorem W1_arg12 : Gen.W1 m ρ c (Proc.devRef .tc main_arg12) = m ((c : Thread nD τ).loc main_arg12) := keep0_arg12 _
theorem W1_v1 : Gen.W1 m ρ c (Proc.devRef .tc main_v1) = srcOf (m ((c : Thread nD τ).loc main_arg1)) := stretch0_src _
theorem W1_v3 : Gen.W1 m ρ c (Proc.devRef .tc main_v3) = dstOf (m ((c : Thread nD τ).loc main_arg1)) := stretch0_dst _
theorem W1_v22 : Gen.W1 m ρ c (Proc.devRef .tc main_v22) = avg (m ((c : Thread nD τ).loc main_arg1)) (m ((c : Thread nD τ).loc main_arg0)) := stretch0_avg _

/-! ## The first call and up to the second -/

theorem W2_v23 : Gen.W2 m ρ c (Proc.devRef .tc main_v23) = h1 m c := by
  refine (Gen.W2_arr m ρ c 5).trans ((Cert.KernelIdeal.Region0.final0 (Gen.V1 m ρ) c).trans ?_)
  show sage (Gen.W1 m ρ c (Proc.devRef .tc main_v22)) (Gen.W1 m ρ c (Proc.devRef .tc main_arg0)) (Gen.W1 m ρ c (Proc.devRef .tc main_arg2))
    (Gen.W1 m ρ c (Proc.devRef .tc main_arg4)) (Gen.W1 m ρ c (Proc.devRef .tc main_arg3)) = _
  rw [W1_v22, W1_arg0, W1_arg2, W1_arg4, W1_arg3]

theorem W2_v1 : Gen.W2 m ρ c (Proc.devRef .tc main_v1) = Gen.W1 m ρ c (Proc.devRef .tc main_v1) := Gen.W2_of_ne m ρ c main_v1 (by decide)
theorem W2_v3 : Gen.W2 m ρ c (Proc.devRef .tc main_v3) = Gen.W1 m ρ c (Proc.devRef .tc main_v3) := Gen.W2_of_ne m ρ c main_v3 (by decide)
theorem W2_arg5 : Gen.W2 m ρ c (Proc.devRef .tc main_arg5) = Gen.W1 m ρ c (Proc.devRef .tc main_arg5) := Gen.W2_of_ne m ρ c main_arg5 (by decide)
theorem W2_arg6 : Gen.W2 m ρ c (Proc.devRef .tc main_arg6) = Gen.W1 m ρ c (Proc.devRef .tc main_arg6) := Gen.W2_of_ne m ρ c main_arg6 (by decide)
theorem W2_arg7 : Gen.W2 m ρ c (Proc.devRef .tc main_arg7) = Gen.W1 m ρ c (Proc.devRef .tc main_arg7) := Gen.W2_of_ne m ρ c main_arg7 (by decide)
theorem W2_arg8 : Gen.W2 m ρ c (Proc.devRef .tc main_arg8) = Gen.W1 m ρ c (Proc.devRef .tc main_arg8) := Gen.W2_of_ne m ρ c main_arg8 (by decide)
theorem W2_arg9 : Gen.W2 m ρ c (Proc.devRef .tc main_arg9) = Gen.W1 m ρ c (Proc.devRef .tc main_arg9) := Gen.W2_of_ne m ρ c main_arg9 (by decide)
theorem W2_arg10 : Gen.W2 m ρ c (Proc.devRef .tc main_arg10) = Gen.W1 m ρ c (Proc.devRef .tc main_arg10) := Gen.W2_of_ne m ρ c main_arg10 (by decide)
theorem W2_arg11 : Gen.W2 m ρ c (Proc.devRef .tc main_arg11) = Gen.W1 m ρ c (Proc.devRef .tc main_arg11) := Gen.W2_of_ne m ρ c main_arg11 (by decide)
theorem W2_arg12 : Gen.W2 m ρ c (Proc.devRef .tc main_arg12) = Gen.W1 m ρ c (Proc.devRef .tc main_arg12) := Gen.W2_of_ne m ρ c main_arg12 (by decide)

theorem W3_v42 : Gen.W3 m ρ c (Proc.devRef .tc main_v42) = avg (m ((c : Thread nD τ).loc main_arg1)) (h1 m c) := by
  refine (stretch1_avg (Gen.W2 m ρ c)).trans ?_
  rw [W2_v1, W2_v3, W2_v23, W1_v1, W1_v3]
  rfl
theorem W3_v23 : Gen.W3 m ρ c (Proc.devRef .tc main_v23) = h1 m c := (keep1_v23 _).trans (W2_v23 m ρ c)
theorem W3_v1 : Gen.W3 m ρ c (Proc.devRef .tc main_v1) = Gen.W1 m ρ c (Proc.devRef .tc main_v1) := (keep1_v1 _).trans (W2_v1 m ρ c)
theorem W3_v3 : Gen.W3 m ρ c (Proc.devRef .tc main_v3) = Gen.W1 m ρ c (Proc.devRef .tc main_v3) := (keep1_v3 _).trans (W2_v3 m ρ c)
theorem W3_arg5 : Gen.W3 m ρ c (Proc.devRef .tc main_arg5) = m ((c : Thread nD τ).loc main_arg5) := (keep1_arg5 _).trans ((W2_arg5 m ρ c).trans (W1_arg5 m ρ c))
theorem W3_arg6 : Gen.W3 m ρ c (Proc.devRef .tc main_arg6) = m ((c : Thread nD τ).loc main_arg6) := (keep1_arg6 _).trans ((W2_arg6 m ρ c).trans (W1_arg6 m ρ c))
theorem W3_arg7 : Gen.W3 m ρ c (Proc.devRef .tc main_arg7) = m ((c : Thread nD τ).loc main_arg7) := (keep1_arg7 _).trans ((W2_arg7 m ρ c).trans (W1_arg7 m ρ c))
theorem W3_arg8 : Gen.W3 m ρ c (Proc.devRef .tc main_arg8) = m ((c : Thread nD τ).loc main_arg8) := (keep1_arg8 _).trans ((W2_arg8 m ρ c).trans (W1_arg8 m ρ c))
theorem W3_arg9 : Gen.W3 m ρ c (Proc.devRef .tc main_arg9) = m ((c : Thread nD τ).loc main_arg9) := (keep1_arg9 _).trans ((W2_arg9 m ρ c).trans (W1_arg9 m ρ c))
theorem W3_arg10 : Gen.W3 m ρ c (Proc.devRef .tc main_arg10) = m ((c : Thread nD τ).loc main_arg10) := (keep1_arg10 _).trans ((W2_arg10 m ρ c).trans (W1_arg10 m ρ c))
theorem W3_arg11 : Gen.W3 m ρ c (Proc.devRef .tc main_arg11) = m ((c : Thread nD τ).loc main_arg11) := (keep1_arg11 _).trans ((W2_arg11 m ρ c).trans (W1_arg11 m ρ c))
theorem W3_arg12 : Gen.W3 m ρ c (Proc.devRef .tc main_arg12) = m ((c : Thread nD τ).loc main_arg12) := (keep1_arg12 _).trans ((W2_arg12 m ρ c).trans (W1_arg12 m ρ c))

/-! ## The second call and up to the last -/

theorem W4_v43 : Gen.W4 m ρ c (Proc.devRef .tc main_v43) = h2 m c := by
  refine (Gen.W4_arr m ρ c 5).trans ((Cert.KernelIdeal.Region1.final1 (Gen.V3 m ρ) c).trans ?_)
  show sage (Gen.W3 m ρ c (Proc.devRef .tc main_v42)) (Gen.W3 m ρ c (Proc.devRef .tc main_v23)) (Gen.W3 m ρ c (Proc.devRef .tc main_arg5))
    (Gen.W3 m ρ c (Proc.devRef .tc main_arg7)) (Gen.W3 m ρ c (Proc.devRef .tc main_arg6)) = _
  rw [W3_v42, W3_v23, W3_arg5, W3_arg7, W3_arg6]

theorem W4_v1 : Gen.W4 m ρ c (Proc.devRef .tc main_v1) = Gen.W3 m ρ c (Proc.devRef .tc main_v1) := Gen.W4_of_ne m ρ c main_v1 (by decide)
theorem W4_v3 : Gen.W4 m ρ c (Proc.devRef .tc main_v3) = Gen.W3 m ρ c (Proc.devRef .tc main_v3) := Gen.W4_of_ne m ρ c main_v3 (by decide)
theorem W4_arg8 : Gen.W4 m ρ c (Proc.devRef .tc main_arg8) = Gen.W3 m ρ c (Proc.devRef .tc main_arg8) := Gen.W4_of_ne m ρ c main_arg8 (by decide)
theorem W4_arg9 : Gen.W4 m ρ c (Proc.devRef .tc main_arg9) = Gen.W3 m ρ c (Proc.devRef .tc main_arg9) := Gen.W4_of_ne m ρ c main_arg9 (by decide)
theorem W4_arg10 : Gen.W4 m ρ c (Proc.devRef .tc main_arg10) = Gen.W3 m ρ c (Proc.devRef .tc main_arg10) := Gen.W4_of_ne m ρ c main_arg10 (by decide)
theorem W4_arg11 : Gen.W4 m ρ c (Proc.devRef .tc main_arg11) = Gen.W3 m ρ c (Proc.devRef .tc main_arg11) := Gen.W4_of_ne m ρ c main_arg11 (by decide)
theorem W4_arg12 : Gen.W4 m ρ c (Proc.devRef .tc main_arg12) = Gen.W3 m ρ c (Proc.devRef .tc main_arg12) := Gen.W4_of_ne m ρ c main_arg12 (by decide)

theorem W5_v62 : Gen.W5 m ρ c (Proc.devRef .tc main_v62) = avg (m ((c : Thread nD τ).loc main_arg1)) (h2 m c) := by
  refine (stretch2_avg (Gen.W4 m ρ c)).trans ?_
  rw [W4_v1, W4_v3, W4_v43, W3_v1, W3_v3, W1_v1, W1_v3]
  rfl
theorem W5_v43 : Gen.W5 m ρ c (Proc.devRef .tc main_v43) = h2 m c := (keep2_v43 _).trans (W4_v43 m ρ c)
theorem W5_arg8 : Gen.W5 m ρ c (Proc.devRef .tc main_arg8) = m ((c : Thread nD τ).loc main_arg8) := (keep2_arg8 _).trans ((W4_arg8 m ρ c).trans (W3_arg8 m ρ c))
theorem W5_arg9 : Gen.W5 m ρ c (Proc.devRef .tc main_arg9) = m ((c : Thread nD τ).loc main_arg9) := (keep2_arg9 _).trans ((W4_arg9 m ρ c).trans (W3_arg9 m ρ c))
theorem W5_arg10 : Gen.W5 m ρ c (Proc.devRef .tc main_arg10) = m ((c : Thread nD τ).loc main_arg10) := (keep2_arg10 _).trans ((W4_arg10 m ρ c).trans (W3_arg10 m ρ c))
theorem W5_v66 : Gen.W5 m ρ c (Proc.devRef .tc main_v66) = padW (m ((c : Thread nD τ).loc main_arg11)) := by
  refine (stretch2_padW (Gen.W4 m ρ c)).trans ?_
  rw [W4_arg11, W3_arg11]
theorem W5_v70 : Gen.W5 m ρ c (Proc.devRef .tc main_v70) = padB (m ((c : Thread nD τ).loc main_arg12)) := by
  refine (stretch2_padB (Gen.W4 m ρ c)).trans ?_
  rw [W4_arg12, W3_arg12]

/-! ## The last call and the result -/

theorem W6_v71_1 : Gen.W6 m ρ c (Proc.devRef .tc main_v71_1) = headPad (h3 m c) (padW (m ((c : Thread nD τ).loc main_arg11))) (padB (m ((c : Thread nD τ).loc main_arg12))) := by
  refine (Gen.W6_arr m ρ c 8).trans ((Cert.KernelIdeal.Region2.final2 (Gen.V5 m ρ) c).trans ?_)
  show headPad (sage (Gen.W5 m ρ c (Proc.devRef .tc main_v62)) (Gen.W5 m ρ c (Proc.devRef .tc main_v43)) (Gen.W5 m ρ c (Proc.devRef .tc main_arg8))
    (Gen.W5 m ρ c (Proc.devRef .tc main_arg10)) (Gen.W5 m ρ c (Proc.devRef .tc main_arg9)))
    (Gen.W5 m ρ c (Proc.devRef .tc main_v66)) (Gen.W5 m ρ c (Proc.devRef .tc main_v70)) = _
  rw [W5_v62, W5_v43, W5_arg8, W5_arg10, W5_arg9, W5_v66, W5_v70]

/-- Row 0 of the padded weights is the head's weight row. -/
theorem padW_row0 (w : FVec Ideal S1x32 .f32) (k : Fin 32) : padW w (ix2 (0 : Fin 128) k) = w (ix2 (0 : Fin 1) k) := by
  unfold padW
  refine (Cert.LibScatterSetRow.scatter_set_row0_apply (by decide) _ rfl rfl rfl rfl _ _ rfl _ k).trans ?_
  exact shapeCast_1a_a_apply w shapeCasts_S1x32_S32 k

/-- Entry 0 of the padded bias is the head's bias. -/
theorem padB_elt0 (b : FVec Ideal S1 .f32) : padB b (ix1 (0 : Fin 128)) = b (ix1 (0 : Fin 1)) := by
  unfold padB
  refine (Cert.LibScatterSetRow.scatter_set_elt0_apply (by decide) _ rfl rfl rfl rfl _ _ rfl _).trans ?_
  exact shapeCast_apply b shapeCasts_S1_S_ ix0 (ix1 (0 : Fin 1)) (by
    have h1 := (Shape.rowMajor S_ ix0).isLt
    have h2 := (Shape.rowMajor S1 (ix1 (0 : Fin 1))).isLt
    have e1 : S_.numel = 1 := rfl
    have e2 : S1.numel = 1 := rfl
    omega)

/-- The first column of the padded head is the head. -/
theorem col0_headPad (h : FVec Ideal S100000x32 .f32) (w : FVec Ideal S1x32 .f32) (b : FVec Ideal S1 .f32) :
    col0 (headPad h (padW w) (padB b)) = headCol h w b := by
  funext i
  obtain ⟨n, rfl⟩ : ∃ n : Fin 100000, i = ix1 n := ⟨i 0, eq_ix1 i⟩
  unfold col0
  refine (shapeCast_apply _ shapeCasts_S100000x1_S100000 (ix1 n) (ix2 n (0 : Fin 1))
    (by rewrite [Shape.rowMajor_val_two, Shape.rowMajor_val_one]; show n.val * 1 + 0 = n.val; omega)).trans ?_
  refine (extractStridedSlice_apply ![0, 0] _ slices_S100000x128_S100000x1_0_0 (ix2 n (0 : Fin 1)) (ix2 n (0 : Fin 128))
    (fun a => match a with
      | ⟨0, _⟩ => by show n.val = 0 + n.val; omega
      | ⟨1, _⟩ => by show (0 : ℕ) = 0 + 0; omega)).trans ?_
  rw [headPad_ix2, padB_elt0]
  show _ = (∑ k : Fin 32, h (ix2 n k) * w (ix2 (0 : Fin 1) k)) + b (ix1 (0 : Fin 1))
  congr 1
  exact Finset.sum_congr rfl fun k _ => by rw [padW_row0]

/-- The result buffer's final contents: the network over the averaging map, of the launch memory. -/
theorem result_eq : Gen.W7 m ρ c (Proc.devRef .tc main_v73)
    = net (avg (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) (m ((c : Thread nD τ).loc main_arg12)) := by
  refine (stretch3_col0 (Gen.W6 m ρ c)).trans ?_
  rw [W6_v71_1, col0_headPad]
  rfl

end Cert.KernelIdeal.KValue

end
-- ==== Proof.RValue.lean ====
/-
  The reference, read as a value: its host program averages the features of each node's in-neighbours (a gather of the
  source rows, a scatter-add onto the destination rows, a count of the in-edges kept at least one, a quotient), applies
  the layer, and does so three times before the linear head. Its result is the network of three layers and the head over
  that averaging map.
-/
import proofs.«161791_j38122129719954_1_alg».proof.Proof.Gen.ReferenceIdeal.Run
import proofs.«161791_j38122129719954_1_alg».proof.Proof.Gen.ReferenceIdeal.Read
import proofs.«161791_j38122129719954_1_alg».proof.Proof.LibSageLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Facts₀ Cert.ReferenceIdeal.Facts Cert.LibSage

/-- The sources of the edges: row 0 of the edge list. -/
def srcOf (e : IVec S2x1600000 32) : IVec S1600000 32 :=
  shapeCast _ (extractStridedSlice S1x1600000 ![0, 0] e slices_S2x1600000_S1x1600000_0_0) shapeCasts_S1x1600000_S1600000

/-- The destinations of the edges: row 1 of the edge list. -/
def dstOf (e : IVec S2x1600000 32) : IVec S1600000 32 :=
  shapeCast _ (extractStridedSlice S1x1600000 ![1, 0] e slices_S2x1600000_S1x1600000_1_0) shapeCasts_S1x1600000_S1600000

/-- The averaging map: each node's row becomes the sum of its in-neighbours' rows over the number of its in-edges, that
    number kept at least one. A negative source index counts from the end. -/
def avg (e : IVec S2x1600000 32) (h : FVec Ideal S100000x64 .f32) :
    FVec Ideal S100000x64 .f32 :=
  Host.divf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (dstOf e))
      (Host.gather gather_S100000x64_S1600000x1_S1600000x64_1_0_n_n_0_1_164 h
        (broadcastInDim S1600000x1 ![0] bcast_S1600000_S1600000x1_0
          (select (cmpi .slt (srcOf e) (broadcastInDim S1600000 ![] bcast_S_S1600000 (constantI S_ 32 0#32)))
            (addi (srcOf e) (broadcastInDim S1600000 ![] bcast_S_S1600000 (constantI S_ 32 100000#32))) (srcOf e)))))
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 (dstOf e))
            (broadcastInDim S1600000 ![] bcast_S_S1600000 (constant (F := Ideal) S_ .f32 0x3F800000#32)))
          (broadcastInDim S100000 ![] bcast_S_S100000 (constant (F := Ideal) S_ .f32 0x3F800000#32)))))

/-! ### General forms of the host's layer and head, with the weight matrices still untransposed -/

/-- The host's layer as a whole array: the weights arrive with one row per output feature and are transposed before each
    product; the result is the layer of the untransposed weights. -/
theorem host_layer {M K N : ℕ} (a x : FVec Ideal ⟨2, ![M, K]⟩ .f32) (wl wr : FVec Ideal ⟨2, ![N, K]⟩ .f32)
    (b : FVec Ideal ⟨1, ![N]⟩ .f32)
    (ht : (⟨2, ![N, K]⟩ : Shape).Transposes [1, 0] ⟨2, ![K, N]⟩)
    (h₁ : (⟨1, ![N]⟩ : Shape).BroadcastsInDim ⟨2, ![1, N]⟩ ![1])
    (h₂ : (⟨2, ![1, N]⟩ : Shape).BroadcastsInDim ⟨2, ![M, N]⟩ ![0, 1])
    (h₀ : (⟨0, ![]⟩ : Shape).BroadcastsInDim ⟨2, ![M, N]⟩ ![]) :
    maximumf (addf (addf (Host.dotGeneral (DotDims.plain M K N) none a (transpose ⟨2, ![K, N]⟩ [1, 0] wl ht))
        (broadcastInDim (⟨2, ![M, N]⟩ : Shape) ![0, 1] h₂ (broadcastInDim (⟨2, ![1, N]⟩ : Shape) ![1] h₁ b)))
        (Host.dotGeneral (DotDims.plain M K N) none x (transpose ⟨2, ![K, N]⟩ [1, 0] wr ht)))
        (broadcastInDim (⟨2, ![M, N]⟩ : Shape) ![] h₀ (constant (F := Ideal) (⟨0, ![]⟩ : Shape) .f32 0x00000000#32))
      = sage a x wl wr b := by
  funext i
  obtain ⟨n, j, rfl⟩ : ∃ n j, i = ix2 n j := ⟨i 0, i 1, eq_ix2 i⟩
  -- column j of a transposed weight matrix is row j of the matrix itself
  have el : (fun k : Fin K => transpose ⟨2, ![K, N]⟩ [1, 0] wl ht (ix2 k j)) = fun k => wl (ix2 j k) :=
    funext fun k => transpose_ix2_apply wl ht k j
  have er : (fun k : Fin K => transpose ⟨2, ![K, N]⟩ [1, 0] wr ht (ix2 k j)) = fun k => wr (ix2 j k) :=
    funext fun k => transpose_ix2_apply wr ht k j
  rw [host_sage_apply, sage_ix2, el, er]

/-- The host's head as a whole array: the one-row weight matrix is transposed to a column, the product has one column,
    the bias is broadcast over the rows, and the one column is then read as a vector over the nodes. -/
theorem host_headCol {M K : ℕ} (h : FVec Ideal ⟨2, ![M, K]⟩ .f32) (w : FVec Ideal ⟨2, ![1, K]⟩ .f32)
    (b : FVec Ideal ⟨1, ![1]⟩ .f32)
    (ht : (⟨2, ![1, K]⟩ : Shape).Transposes [1, 0] ⟨2, ![K, 1]⟩)
    (h₁ : (⟨1, ![1]⟩ : Shape).BroadcastsInDim ⟨2, ![1, 1]⟩ ![1])
    (h₂ : (⟨2, ![1, 1]⟩ : Shape).BroadcastsInDim ⟨2, ![M, 1]⟩ ![0, 1])
    (hc : (⟨2, ![M, 1]⟩ : Shape).ShapeCasts ⟨1, ![M]⟩) :
    shapeCast (⟨1, ![M]⟩ : Shape) (addf (Host.dotGeneral (DotDims.plain M K 1) none h (transpose ⟨2, ![K, 1]⟩ [1, 0] w ht))
        (broadcastInDim (⟨2, ![M, 1]⟩ : Shape) ![0, 1] h₂ (broadcastInDim (⟨2, ![1, 1]⟩ : Shape) ![1] h₁ b))) hc
      = headCol h w b := by
  funext i
  obtain ⟨n, rfl⟩ : ∃ n, i = ix1 n := ⟨i 0, eq_ix1 i⟩
  -- the vector's entry n is the column's entry (n, 0): both sit at place n of the row-major order
  rw [shapeCast_apply _ hc (ix1 n) (ix2 n (0 : Fin 1))
    (by rw [Shape.rowMajor_val_two, Shape.rowMajor_val_one]; show n.val * 1 + 0 = n.val; omega)]
  rw [host_head_apply]
  show _ = (∑ k : Fin K, h (ix2 n k) * w (ix2 (0 : Fin 1) k)) + b (ix1 (0 : Fin 1))
  congr 1
  exact Finset.sum_congr rfl fun k _ => by rw [transpose_ix2_apply]

/-! ### The stages of the reference's run

Each stage of the run is one printed operation applied to earlier stages. The averages before each layer are, operation for
operation, the averaging map applied to that layer's input; each layer is the host's layer above; the result is the
host's head above. -/

/-- The first averages: the averaging map of the input features. -/
theorem stage_avg1 (x0 : FVec Ideal S100000x64 .f32) (x1 : IVec S2x1600000 32) :
    Read.val_main_v22 (F := Ideal) x0 x1 = avg x1 x0 := by
  unfold Read.val_main_v22 Read.val_main_v13 Read.val_main_v21 Read.val_main_v20 Read.val_main_v19 Read.val_main_v18
    Read.val_main_v17 Read.val_main_v16 Read.val_main_v15 Read.val_main_v14 Read.val_main_v12 Read.val_main_v11
    Read.val_main_v10 Read.val_main_v9 Read.val_main_v8 Read.val_main_v7 Read.val_main_v6 Read.val_main_v5
    Read.val_main_v4 Read.val_main_v3 Read.val_main_v2 Read.val_main_v1 Read.val_main_v0 Read.val_main_c
    Read.val_main_c_0 Read.val_main_cst Read.val_main_cst_1 Read.val_main_cst_2 Read.val_main_cst_3 avg srcOf dstOf
  rfl

/-- The first layer. -/
theorem stage_layer1 (x0 : FVec Ideal S100000x64 .f32) (x1 : IVec S2x1600000 32) (x2 : FVec Ideal S64x64 .f32) (x3 : FVec Ideal S64 .f32) (x4 : FVec Ideal S64x64 .f32) :
    Read.val_main_v31 (F := Ideal) x0 x1 x2 x3 x4 = sage (avg x1 x0) x0 x2 x4 x3 := by
  rw [← stage_avg1]
  unfold Read.val_main_v31 Read.val_main_v30 Read.val_main_v27 Read.val_main_v24 Read.val_main_v29 Read.val_main_v26
    Read.val_main_v25 Read.val_main_v23 Read.val_main_v28 Read.val_main_call0_v0 Read.val_main_call0_cst
  exact host_layer (Read.val_main_v22 (F := Ideal) x0 x1) x0 x2 x4 x3 _ _ _ _

/-- The second averages: the averaging map of the first layer's result. -/
theorem stage_avg2 (x0 : FVec Ideal S100000x64 .f32) (x1 : IVec S2x1600000 32) (x2 : FVec Ideal S64x64 .f32) (x3 : FVec Ideal S64 .f32) (x4 : FVec Ideal S64x64 .f32) :
    Read.val_main_v50 (F := Ideal) x0 x1 x2 x3 x4 = avg x1 (Read.val_main_v31 (F := Ideal) x0 x1 x2 x3 x4) := by
  unfold Read.val_main_v50 Read.val_main_v41 Read.val_main_v49 Read.val_main_v48 Read.val_main_v47 Read.val_main_v46
    Read.val_main_v45 Read.val_main_v44 Read.val_main_v43 Read.val_main_v42 Read.val_main_v40 Read.val_main_v39
    Read.val_main_v38 Read.val_main_v37 Read.val_main_v36 Read.val_main_v35 Read.val_main_v34 Read.val_main_v33
    Read.val_main_v32 Read.val_main_v3 Read.val_main_v2 Read.val_main_v1 Read.val_main_v0 Read.val_main_c_4
    Read.val_main_c_5 Read.val_main_cst_6 Read.val_main_cst_7 Read.val_main_cst_8 Read.val_main_cst_9 avg srcOf dstOf
  rfl

/-- The second layer, over the first layer's result. -/
theorem stage_layer2 (x0 : FVec Ideal S100000x64 .f32) (x1 : IVec S2x1600000 32) (x2 : FVec Ideal S64x64 .f32) (x3 : FVec Ideal S64 .f32) (x4 : FVec Ideal S64x64 .f32) (x5 : FVec Ideal S64x64 .f32) (x6 : FVec Ideal S64 .f32) (x7 : FVec Ideal S64x64 .f32) :
    Read.val_main_v59 (F := Ideal) x0 x1 x2 x3 x4 x5 x6 x7
      = sage (avg x1 (Read.val_main_v31 (F := Ideal) x0 x1 x2 x3 x4)) (Read.val_main_v31 (F := Ideal) x0 x1 x2 x3 x4)
          x5 x7 x6 := by
  rw [← stage_avg2]
  unfold Read.val_main_v59 Read.val_main_v58 Read.val_main_v55 Read.val_main_v52 Read.val_main_v57 Read.val_main_v54
    Read.val_main_v53 Read.val_main_v51 Read.val_main_v56 Read.val_main_call1_v0 Read.val_main_call1_cst
  exact host_layer (Read.val_main_v50 (F := Ideal) x0 x1 x2 x3 x4) (Read.val_main_v31 (F := Ideal) x0 x1 x2 x3 x4)
    x5 x7 x6 _ _ _ _

/-- The third averages: the averaging map of the second layer's result. -/
theorem stage_avg3 (x0 : FVec Ideal S100000x64 .f32) (x1 : IVec S2x1600000 32) (x2 : FVec Ideal S64x64 .f32) (x3 : FVec Ideal S64 .f32) (x4 : FVec Ideal S64x64 .f32) (x5 : FVec Ideal S64x64 .f32) (x6 : FVec Ideal S64 .f32) (x7 : FVec Ideal S64x64 .f32) :
    Read.val_main_v78 (F := Ideal) x0 x1 x2 x3 x4 x5 x6 x7
      = avg x1 (Read.val_main_v59 (F := Ideal) x0 x1 x2 x3 x4 x5 x6 x7) := by
  unfold Read.val_main_v78 Read.val_main_v69 Read.val_main_v77 Read.val_main_v76 Read.val_main_v75 Read.val_main_v74
    Read.val_main_v73 Read.val_main_v72 Read.val_main_v71 Read.val_main_v70 Read.val_main_v68 Read.val_main_v67
    Read.val_main_v66 Read.val_main_v65 Read.val_main_v64 Read.val_main_v63 Read.val_main_v62 Read.val_main_v61
    Read.val_main_v60 Read.val_main_v3 Read.val_main_v2 Read.val_main_v1 Read.val_main_v0 Read.val_main_c_10
    Read.val_main_c_11 Read.val_main_cst_12 Read.val_main_cst_13 Read.val_main_cst_14 Read.val_main_cst_15 avg srcOf dstOf
  rfl

/-- The third layer, over the second layer's result; its weights have 32 rows. -/
theorem stage_layer3 (x0 : FVec Ideal S100000x64 .f32) (x1 : IVec S2x1600000 32) (x2 : FVec Ideal S64x64 .f32) (x3 : FVec Ideal S64 .f32) (x4 : FVec Ideal S64x64 .f32) (x5 : FVec Ideal S64x64 .f32) (x6 : FVec Ideal S64 .f32) (x7 : FVec Ideal S64x64 .f32) (x8 : FVec Ideal S32x64 .f32) (x9 : FVec Ideal S32 .f32) (x10 : FVec Ideal S32x64 .f32) :
    Read.val_main_v87 (F := Ideal) x0 x1 x2 x3 x4 x5 x6 x7 x8 x9 x10
      = sage (avg x1 (Read.val_main_v59 (F := Ideal) x0 x1 x2 x3 x4 x5 x6 x7))
          (Read.val_main_v59 (F := Ideal) x0 x1 x2 x3 x4 x5 x6 x7) x8 x10 x9 := by
  rw [← stage_avg3]
  unfold Read.val_main_v87 Read.val_main_v86 Read.val_main_v83 Read.val_main_v80 Read.val_main_v85 Read.val_main_v82
    Read.val_main_v81 Read.val_main_v79 Read.val_main_v84 Read.val_main_call2_v0 Read.val_main_call2_cst
  exact host_layer (Read.val_main_v78 (F := Ideal) x0 x1 x2 x3 x4 x5 x6 x7)
    (Read.val_main_v59 (F := Ideal) x0 x1 x2 x3 x4 x5 x6 x7) x8 x10 x9 _ _ _ _

/-- The result: the head over the third layer's result. -/
theorem stage_head (x0 : FVec Ideal S100000x64 .f32) (x1 : IVec S2x1600000 32) (x2 : FVec Ideal S64x64 .f32) (x3 : FVec Ideal S64 .f32) (x4 : FVec Ideal S64x64 .f32) (x5 : FVec Ideal S64x64 .f32) (x6 : FVec Ideal S64 .f32) (x7 : FVec Ideal S64x64 .f32) (x8 : FVec Ideal S32x64 .f32) (x9 : FVec Ideal S32 .f32) (x10 : FVec Ideal S32x64 .f32) (x11 : FVec Ideal S1x32 .f32) (x12 : FVec Ideal S1 .f32) :
    Read.val_main_v93 (F := Ideal) x0 x1 x2 x3 x4 x5 x6 x7 x8 x9 x10 x11 x12
      = headCol (Read.val_main_v87 (F := Ideal) x0 x1 x2 x3 x4 x5 x6 x7 x8 x9 x10) x11 x12 := by
  unfold Read.val_main_v93 Read.val_main_v92 Read.val_main_v89 Read.val_main_v91 Read.val_main_v90 Read.val_main_v88
  exact host_headCol (Read.val_main_v87 (F := Ideal) x0 x1 x2 x3 x4 x5 x6 x7 x8 x9 x10) x11 x12 _ _ _ _

/-- The whole run over arbitrary argument arrays: three layers, each over the averages of its input, then the head. -/
theorem stage_net (x0 : FVec Ideal S100000x64 .f32) (x1 : IVec S2x1600000 32) (x2 : FVec Ideal S64x64 .f32) (x3 : FVec Ideal S64 .f32) (x4 : FVec Ideal S64x64 .f32) (x5 : FVec Ideal S64x64 .f32) (x6 : FVec Ideal S64 .f32) (x7 : FVec Ideal S64x64 .f32) (x8 : FVec Ideal S32x64 .f32) (x9 : FVec Ideal S32 .f32) (x10 : FVec Ideal S32x64 .f32) (x11 : FVec Ideal S1x32 .f32) (x12 : FVec Ideal S1 .f32) :
    Read.val_main_v93 (F := Ideal) x0 x1 x2 x3 x4 x5 x6 x7 x8 x9 x10 x11 x12
      = net (avg x1) x0 x2 x3 x4 x5 x6 x7 x8 x9 x10 x11 x12 := by
  rw [stage_head, stage_layer3, stage_layer2, stage_layer1]
  rfl

/-- The reference's result is the network over the averaging map, of its argument arrays. -/
theorem ref_value (m : (ℓ : Loc nD τ sig) → Buf (Elt Ideal) ℓ) (c : Dev nD) :
    Cert.ReferenceIdeal.Value.res_main_v93 (F := Ideal) m c
      = net (avg (m ((c.tc : Thread nD τ).loc main_arg1))) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) := by
  rw [Read.val_main_v93_eq]
  exact stage_net _ _ _ _ _ _ _ _ _ _ _ _ _

end Cert.ReferenceIdeal.RefValue

end
-- ==== Proof.lean ====
/-
  The certificate of a three-layer graph network that averages over neighbours, with a linear head: a kernel program of
  three kernel calls among host operations against a host reference.

  Both programs average the features of each node's in-neighbours by the same host operations (a gather of the edges'
  source rows, a scatter-add onto the destination rows, the in-degree kept at least one, a quotient), so that map is
  carried as one function and never opened. A layer is  max(a · Wlᵀ + x · Wrᵀ + b, 0)  of the averages a and the
  features x. The kernel forms the two products, adds them, then adds the bias; the reference adds the bias to the first
  product and then the second product: over the extended reals addition is commutative and associative, so the two are
  equal entry by entry, and no finiteness of the inputs is used. The kernel computes each layer on blocks of 5000 rows;
  a row of a layer depends on the same row of its inputs only, and the blocks tile the rows. The last kernel also forms
  the head against the head's weight row padded with zeros to 128 rows, and the program keeps column 0, which uses the
  weight row and the bias entry themselves: the reference's product with the one weight row plus its bias.

  The frames of the two kernel programs are the generated ones; the reference's frame is its generated run with the
  result dropped; nothing was rewritten by the idealization, so its soundness claim is trivial.
-/
import proofs.«161791_j38122129719954_1_alg».proof.Defs
import proofs.«161791_j38122129719954_1_alg».proof.Proof.Gen.Kernel
import proofs.«161791_j38122129719954_1_alg».proof.Proof.Gen.Kernel.Skeleton
import proofs.«161791_j38122129719954_1_alg».proof.Proof.Gen.Kernel.Launch
import proofs.«161791_j38122129719954_1_alg».proof.Proof.Gen.Kernel.Points
import proofs.«161791_j38122129719954_1_alg».proof.Proof.Gen.Kernel.Frame
import proofs.«161791_j38122129719954_1_alg».proof.Proof.Gen.KernelIdeal
import proofs.«161791_j38122129719954_1_alg».proof.Proof.Gen.KernelIdeal.Skeleton
import proofs.«161791_j38122129719954_1_alg».proof.Proof.Gen.KernelIdeal.Launch
import proofs.«161791_j38122129719954_1_alg».proof.Proof.Gen.KernelIdeal.Points
import proofs.«161791_j38122129719954_1_alg».proof.Proof.Gen.KernelIdeal.Frame
import proofs.«161791_j38122129719954_1_alg».proof.Proof.Gen.ReferenceIdeal
import proofs.«161791_j38122129719954_1_alg».proof.Proof.Gen.Pre_finite_inputs
import proofs.«161791_j38122129719954_1_alg».proof.Proof.Gen.ReferenceIdeal.Run
import proofs.«161791_j38122129719954_1_alg».proof.Proof.Gen.ReferenceIdeal.Read
import proofs.«161791_j38122129719954_1_alg».proof.Proof.KRun
import proofs.«161791_j38122129719954_1_alg».proof.Proof.KValue
import proofs.«161791_j38122129719954_1_alg».proof.Proof.RValue
import Idealize.ShloMosaic.Adequacy
import Idealize.ShloMosaic.Init

noncomputable section

namespace Cert.Proof

open Idealize.ShloMosaic Idealize.SL.Sem

/-- The two programs' averaging maps are one function: the same host operations over the same shapes. -/
theorem avg_eq : Cert.ReferenceIdeal.RefValue.avg = Cert.KernelIdeal.KHost.avg := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the network of three layers and the head over the shared averaging map. -/
theorem algebraic : Cert.algebraic_KernelIdeal_ReferenceIdeal := by
  intro m ρ m' ρ' _ hagree
  refine ⟨fun c => Cert.LibSage.net (Cert.KernelIdeal.KHost.avg (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KValue.result_eq m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.RefValue.ref_value m' c, e0, e1, e2, e3, e4, e5, e6, e7, e8, e9, e10, e11, e12, avg_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
